-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x512 : Shape := ⟨2, ![8, 512]⟩
abbrev S8 : Shape := ⟨1, ![8]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S8 : S_.BroadcastsInDim S8 (![] : Fin 0 → Fin S8.rank)
  reducesTo_S8_S_d0 : S8.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg7 : FVec F S128 .f32) (main_arg8 : FVec F S128x6 .f32) (main_arg9 : FVec F S6 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x6 .f32 := Host.absf main_arg8
  let main_cst_14 : FVec F S_ .f32 := constant S_ .f32 0x7F800000#32
  let main_v40 : FVec F S128x6 .f32 := broadcastInDim S128x6 ![] bcast_S_S128x6 main_cst_14
  let main_v41 : IVec S128x6 1 := cmpf .olt main_v39 main_v40
  let main_c_15 : IVec S_ 1 := constantI S_ 1 1#1
  let main_v42 : IVec S_ 1 := (fun x v => Host.reduce IntOp.andi x v reducesTo_S128x6_S_d0_1 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  main_v48

def fn_part1 {F : FTy → Type} [FloatOps F] (main_arg4 : FVec F S512x256 .f32) (main_arg5 : FVec F S256 .f32) (main_arg6 : FVec F S256x128 .f32) (main_arg7 : FVec F S128 .f32) (main_arg8 : FVec F S128x6 .f32) (main_arg9 : FVec F S6 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x3 .f32) (main_arg1 : FVec F S8x4096x3 .f32) (main_arg2 : FVec F S8x512 .f32) (main_arg3 : FVec F S8 .f32) (main_arg4 : FVec F S512x256 .f32) (main_arg5 : FVec F S256 .f32) (main_arg6 : FVec F S256x128 .f32) (main_arg7 : FVec F S128 .f32) (main_arg8 : FVec F S128x6 .f32) (main_arg9 : FVec F S6 .f32) (main_arg10 : IVec S8 32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_arg8 main_arg9 main_v13 main_v16
-- ==== Kernel.lean ====
abbrev S8x4096x3 : Shape := ⟨3, ![8, 4096, 3]⟩
abbrev S8x512 : Shape := ⟨2, ![8, 512]⟩
abbrev S8 : Shape := ⟨1, ![8]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x6 : Shape := ⟨2, ![128, 6]⟩
abbrev S6 : Shape := ⟨1, ![6]⟩
abbrev S8x1x4096 : Shape := ⟨3, ![8, 1, 4096]⟩
abbrev S1x4096x3 : Shape := ⟨3, ![1, 4096, 3]⟩
abbrev S1x1024x3 : Shape := ⟨3, ![1, 1024, 3]⟩
abbrev S1x1x4096 : Shape := ⟨3, ![1, 1, 4096]⟩
abbrev S1x1x1024 : Shape := ⟨3, ![1, 1, 1024]⟩
abbrev S4096x1 : Shape := ⟨2, ![4096, 1]⟩
abbrev S4096x3 : Shape := ⟨2, ![4096, 3]⟩
abbrev S1024x3 : Shape := ⟨2, ![1024, 3]⟩
abbrev S3x1024 : Shape := ⟨2, ![3, 1024]⟩
abbrev S1x1024 : Shape := ⟨2, ![1, 1024]⟩
abbrev S4096x1024 : Shape := ⟨2, ![4096, 1024]⟩
abbrev S4096 : Shape := ⟨1, ![4096]⟩
abbrev S1024 : Shape := ⟨1, ![1024]⟩
abbrev S1x4096 : Shape := ⟨2, ![1, 4096]⟩
abbrev S8x4096 : Shape := ⟨2, ![8, 4096]⟩
abbrev S_ : Shape := ⟨0, ![]⟩
abbrev S8x256 : Shape := ⟨2, ![8, 256]⟩
abbrev S1x256 : Shape := ⟨2, ![1, 256]⟩
abbrev S8x128 : Shape := ⟨2, ![8, 128]⟩
abbrev S1x128 : Shape := ⟨2, ![1, 128]⟩
abbrev S8x6 : Shape := ⟨2, ![8, 6]⟩
abbrev S1x6 : Shape := ⟨2, ![1, 6]⟩
abbrev S8x1 : Shape := ⟨2, ![8, 1]⟩
abbrev S8x1x1 : Shape := ⟨3, ![8, 1, 1]⟩
abbrev S1 : Shape := ⟨1, ![1]⟩
abbrev S1x1x1 : Shape := ⟨3, ![1, 1, 1]⟩

abbrev nBuf : Space → Nat
  | .hbm => 163
  | .vmem => 9
  | .smem => 0
  | _ => 0

abbrev hbmTy0_0 (i : Nat) : BufTy := match i % 128 with
  | 0 => ⟨S8x4096x3, .f32⟩
  | 1 => ⟨S8x4096x3, .f32⟩
  | 2 => ⟨S8x512, .f32⟩
  | 3 => ⟨S8, .f32⟩
  | 4 => ⟨S512x256, .f32⟩
  | 5 => ⟨S256, .f32⟩
  | 6 => ⟨S256x128, .f32⟩
  | 7 => ⟨S128, .f32⟩
  | 8 => ⟨S128x6, .f32⟩
  | 9 => ⟨S6, .f32⟩
  | 10 => ⟨S8, .i32⟩
  | 11 => ⟨S8x1x4096, .f32⟩
  | 12 => ⟨S8x1x4096, .f32⟩
  | 13 => ⟨S8x4096, .f32⟩
  | 14 => ⟨S8x4096, .f32⟩
  | 15 => ⟨S8x4096, .f32⟩
  | 16 => ⟨S_, .f32⟩
  | 17 => ⟨S8x4096, .f32⟩
  | 18 => ⟨S8x4096, .f32⟩
  | 19 => ⟨S8x4096, .f32⟩
  | 20 => ⟨S8x4096, .f32⟩
  | 21 => ⟨S_, .f32⟩
  | 22 => ⟨S8x4096, .f32⟩
  | 23 => ⟨S8x4096, .f32⟩
  | 24 => ⟨S8x4096, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S_, .f32⟩
  | 62 => ⟨S8, .f32⟩
  | 63 => ⟨S8, .f32⟩
  | 64 => ⟨S8, .f32⟩
  | 65 => ⟨S_, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S8, .f32⟩
  | 92 => ⟨S_, .f32⟩
  | 93 => ⟨S_, .f32⟩
  | 94 => ⟨S_, .f32⟩
  | 95 => ⟨S_, .f32⟩
  | 96 => ⟨S8x256, .f32⟩
  | 97 => ⟨S1x256, .f32⟩
  | 98 => ⟨S8x256, .f32⟩
  | 99 => ⟨S8x256, .f32⟩
  | 100 => ⟨S_, .f32⟩
  | 101 => ⟨S8x256, .f32⟩
  | 102 => ⟨S8x256, .f32⟩
  | 103 => ⟨S8x128, .f32⟩
  | 104 => ⟨S1x128, .f32⟩
  | 105 => ⟨S8x128, .f32⟩
  | 106 => ⟨S8x128, .f32⟩
  | 107 => ⟨S_, .f32⟩
  | 108 => ⟨S8x128, .f32⟩
  | 109 => ⟨S8x128, .f32⟩
  | 110 => ⟨S8x6, .f32⟩
  | 111 => ⟨S1x6, .f32⟩
  | 112 => ⟨S8x6, .f32⟩
  | 113 => ⟨S8x6, .f32⟩
  | 114 => ⟨S_, .f32⟩
  | 115 => ⟨S8, .f32⟩
  | 116 => ⟨S_, .f32⟩
  | 117 => ⟨S8, .f32⟩
  | 118 => ⟨S8, .f32⟩
  | 119 => ⟨S8x1, .f32⟩
  | 120 => ⟨S8x6, .f32⟩
  | 121 => ⟨S8x6, .f32⟩
  | 122 => ⟨S8x6, .f32⟩
  | 123 => ⟨S_, .f32⟩
  | 124 => ⟨S8, .f32⟩
  | 125 => ⟨S8x1, .f32⟩
  | 126 => ⟨S8x1, .f32⟩
  | 127 => ⟨S8x6, .f32⟩
  | _ => ⟨S8x4096x3, .f32⟩

abbrev hbmTy0_1 (i : Nat) : BufTy := match i % 128 with
  | 0 => ⟨S8x6, .f32⟩
  | 1 => ⟨S8x1, .i32⟩
  | 2 => ⟨S_, .i32⟩
  | 3 => ⟨S8x1, .i32⟩
  | 4 => ⟨S8x1, .i1⟩
  | 5 => ⟨S_, .i32⟩
  | 6 => ⟨S8x1, .i32⟩
  | 7 => ⟨S8x1, .i32⟩
  | 8 => ⟨S8x1, .i32⟩
  | 9 => ⟨S8x1x1, .i32⟩
  | 10 => ⟨S1, .i32⟩
  | 11 => ⟨S_, .i32⟩
  | 12 => ⟨S8x1x1, .i32⟩
  | 13 => ⟨S8x1x1, .i1⟩
  | 14 => ⟨S1x1x1, .i32⟩
  | 15 => ⟨S8x1x1, .i32⟩
  | 16 => ⟨S8x1x1, .i1⟩
  | 17 => ⟨S8x1x1, .i1⟩
  | 18 => ⟨S_, .i1⟩
  | 19 => ⟨S8x1, .i1⟩
  | 20 => ⟨S8x1, .f32⟩
  | 21 => ⟨S_, .f32⟩
  | 22 => ⟨S8x1, .f32⟩
  | 23 => ⟨S8x1, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | .local _ .vmem, ⟨0, _⟩ => ⟨S1x4096x3, .f32⟩
  | .local _ .vmem, ⟨1, _⟩ => ⟨S1x4096x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x4096, .f32⟩
  | .local _ .vmem, ⟨5, _⟩ => ⟨S1x1x4096, .f32⟩
  | .local _ .vmem, ⟨6, _⟩ => ⟨S1x1x1024, .f32⟩
  | .local _ .vmem, ⟨7, _⟩ => ⟨S1x1x1024, .f32⟩
  | .local _ .vmem, ⟨8, _⟩ => ⟨S4096x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_cst_8 : Ref sig .tc := ⟨.hbm, 40, rfl⟩
abbrev main_v19 : Ref sig .tc := ⟨.hbm, 41, rfl⟩
abbrev main_cst_9 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_10 : Ref sig .tc := ⟨.hbm, 46, rfl⟩
abbrev main_v23 : Ref sig .tc := ⟨.hbm, 47, rfl⟩
abbrev main_v24 : Ref sig .tc := ⟨.hbm, 48, rfl⟩
abbrev main_cst_11 : Ref sig .tc := ⟨.hbm, 49, rfl⟩
abbrev main_v25 : Ref sig .tc := ⟨.hbm, 50, rfl⟩
abbrev main_cst_12 : Ref sig .tc := ⟨.hbm, 51, rfl⟩
abbrev main_v26 : Ref sig .tc := ⟨.hbm, 52, rfl⟩
abbrev main_v27 : Ref sig .tc := ⟨.hbm, 53, rfl⟩
abbrev main_cst_13 : Ref sig .tc := ⟨.hbm, 54, rfl⟩
abbrev main_v28 : Ref sig .tc := ⟨.hbm, 55, rfl⟩
abbrev main_cst_14 : Ref sig .tc := ⟨.hbm, 56, rfl⟩
abbrev main_v29 : Ref sig .tc := ⟨.hbm, 57, rfl⟩
abbrev main_v30 : Ref sig .tc := ⟨.hbm, 58, rfl⟩
abbrev main_cst_15 : Ref sig .tc := ⟨.hbm, 59, rfl⟩
abbrev main_v31 : Ref sig .tc := ⟨.hbm, 60, rfl⟩
abbrev main_cst_16 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_17 : Ref sig .tc := ⟨.hbm, 65, rfl⟩
abbrev main_v35 : Ref sig .tc := ⟨.hbm, 66, rfl⟩
abbrev main_cst_18 : Ref sig .tc := ⟨.hbm, 67, rfl⟩
abbrev main_v36 : Ref sig .tc := ⟨.hbm, 68, rfl⟩
abbrev main_v37 : Ref sig .tc := ⟨.hbm, 69, rfl⟩
abbrev main_cst_19 : Ref sig .tc := ⟨.hbm, 70, rfl⟩
abbrev main_v38 : Ref sig .tc := ⟨.hbm, 71, rfl⟩
abbrev main_cst_20 : Ref sig .tc := ⟨.hbm, 72, rfl⟩
abbrev main_v39 : Ref sig .tc := ⟨.hbm, 73, rfl⟩
abbrev main_v40 : Ref sig .tc := ⟨.hbm, 74, rfl⟩
abbrev main_cst_21 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_22 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_23 : Ref sig .tc := ⟨.hbm, 84, rfl⟩
abbrev main_v48 : Ref sig .tc := ⟨.hbm, 85, rfl⟩
abbrev main_v49 : Ref sig .tc := ⟨.hbm, 86, rfl⟩
abbrev main_cst_24 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_25 : Ref sig .tc := ⟨.hbm, 92, rfl⟩
abbrev main_v54 : Ref sig .tc := ⟨.hbm, 93, rfl⟩
abbrev main_cst_26 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_call0_cst : Ref sig .tc := ⟨.hbm, 100, rfl⟩
abbrev main_call0_v0 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call1_cst : Ref sig .tc := ⟨.hbm, 107, rfl⟩
abbrev main_call1_v0 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v70 : Ref sig .tc := ⟨.hbm, 128, rfl⟩
abbrev main_v71 : Ref sig .tc := ⟨.hbm, 129, rfl⟩
abbrev main_call3_c : Ref sig .tc := ⟨.hbm, 130, rfl⟩
abbrev main_call3_v0 : Ref sig .tc := ⟨.hbm, 131, rfl⟩
abbrev main_call3_v1 : Ref sig .tc := ⟨.hbm, 132, rfl⟩
abbrev main_call3_c_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_c_1 : Ref sig .tc := ⟨.hbm, 138, rfl⟩
abbrev main_call3_c_2 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_3 : Ref sig .tc := ⟨.hbm, 146, rfl⟩
abbrev main_call3_v12 : Ref sig .tc := ⟨.hbm, 147, rfl⟩
abbrev main_call3_v13 : Ref sig .tc := ⟨.hbm, 148, rfl⟩
abbrev main_call3_cst : Ref sig .tc := ⟨.hbm, 149, rfl⟩
abbrev main_call3_v14 : Ref sig .tc := ⟨.hbm, 150, rfl⟩
abbrev main_v72 : Ref sig .tc := ⟨.hbm, 151, rfl⟩
abbrev main_cst_27 : Ref sig .tc := ⟨.hbm, 152, rfl⟩
abbrev main_v73 : Ref sig .tc := ⟨.hbm, 153, rfl⟩
abbrev main_cst_28 : Ref sig .tc := ⟨.hbm, 154, rfl⟩
abbrev main_v74 : Ref sig .tc := ⟨.hbm, 155, rfl⟩
abbrev main_v75 : Ref sig .tc := ⟨.hbm, 156, rfl⟩
abbrev main_cst_29 : Ref sig .tc := ⟨.hbm, 157, rfl⟩
abbrev main_v76 : Ref sig .tc := ⟨.hbm, 158, rfl⟩
abbrev main_cst_30 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_15 : BitVec 32 := 0#32
  let v55 : BitVec 1 := Scalar.cmpi .ne v54 c0_i32_15
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  transposes_S1024x3_p1_0_S3x1024 : S1024x3.Transposes [1, 0] S3x1024
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S4096x1_S4096x1024 : S4096x1.Broadcasts S4096x1024
  broadcasts_S1x1024_S4096x1024 : S1x1024.Broadcasts S4096x1024
  reduces_S4096x1024_S4096 : S4096x1024.Reduces [1] S4096
  shapeCasts_S4096_S4096x1 : S4096.ShapeCasts S4096x1
  reduces_S4096x1024_S1024 : S4096x1024.Reduces [0] S1024
  shapeCasts_S1024_S1x1024 : S1024.ShapeCasts S1x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  transposes_S4096x1_p1_0_S1x4096 : S4096x1.Transposes [1, 0] S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  bcast_S_S8x4096 : S_.BroadcastsInDim S8x4096 (![] : Fin 0 → Fin S8x4096.rank)
  reducesTo_S8x4096_S_d0_1 : S8x4096.ReducesTo [0, 1] S_
  h_S_ : 0 < S_.numel
  reducesTo_S8x4096_S8_d1 : S8x4096.ReducesTo [1] S8
  bcast_S_S8 : S_.BroadcastsInDim S8 (![] : Fin 0 → Fin S8.rank)
  reducesTo_S8_S_d0 : S8.ReducesTo [0] S_
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  bcast_S6_S1x6_1 : S6.BroadcastsInDim S1x6 (![1] : Fin 1 → Fin S1x6.rank)
  bcast_S1x6_S8x6_0_1 : S1x6.BroadcastsInDim S8x6 (![0, 1] : Fin 2 → Fin S8x6.rank)
  reducesTo_S8x6_S8_d1 : S8x6.ReducesTo [1] S8
  bcast_S8_S8x1_0 : S8.BroadcastsInDim S8x1 (![0] : Fin 1 → Fin S8x1.rank)
  bcast_S8x1_S8x6_0_1 : S8x1.BroadcastsInDim S8x6 (![0, 1] : Fin 2 → Fin S8x6.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1_S1x1x1_2 : S1.BroadcastsInDim S1x1x1 (![2] : Fin 1 → Fin S1x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  dot_S8x512_S512x256_S8x256_1_0_0_1_n_n_wf : DotDims.WF S8x512 S512x256 S8x256 [1] [0] [0] [1] [] []
  dot_S8x256_S256x128_S8x128_1_0_0_1_n_n_wf : DotDims.WF S8x256 S256x128 S8x128 [1] [0] [0] [1] [] []
  dot_S8x128_S128x6_S8x6_1_0_0_1_n_n_wf : DotDims.WF S8x128 S128x6 S8x6 [1] [0] [0] [1] [] []
  gather_S8x6_S8x1x1_S8x1_n_1_0_0_1_2_11_wf : GatherDims.WF S8x6 S8x1x1 S8x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x6_S8x6_1_0_0_1_n_n : DotDims S8x128 S128x6 S8x6 where
  lhsContracting := [1]
  rhsContracting := [0]
  lhsNonContracting := [0]
  rhsNonContracting := [1]
  lhsBatch := []
  rhsBatch := []
  wf := dot_S8x128_S128x6_S8x6_1_0_0_1_n_n_wf
def gather_S8x6_S8x1x1_S8x1_n_1_0_0_1_2_11 : GatherDims S8x6 S8x1x1 S8x1 where
  offsetDims := []
  collapsedSliceDims := [1]
  operandBatchingDims := [0]
  startIndicesBatchingDims := [0]
  startIndexMap := [1]
  indexVectorDim := 2
  sliceSizes := ![1, 1]
  wf := gather_S8x6_S8x1x1_S8x1_n_1_0_0_1_2_11_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x512 : Shape := ⟨2, ![8, 512]⟩
abbrev S8 : Shape := ⟨1, ![8]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x6 : Shape := ⟨2, ![128, 6]⟩
abbrev S6 : Shape := ⟨1, ![6]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8x256 : Shape := ⟨2, ![8, 256]⟩
abbrev S1x256 : Shape := ⟨2, ![1, 256]⟩
abbrev S8x128 : Shape := ⟨2, ![8, 128]⟩
abbrev S1x128 : Shape := ⟨2, ![1, 128]⟩
abbrev S8x6 : Shape := ⟨2, ![8, 6]⟩
abbrev S1x6 : Shape := ⟨2, ![1, 6]⟩
abbrev S8x1 : Shape := ⟨2, ![8, 1]⟩
abbrev S8x1x1 : Shape := ⟨3, ![8, 1, 1]⟩
abbrev S1 : Shape := ⟨1, ![1]⟩
abbrev S1x1x1 : Shape := ⟨3, ![1, 1, 1]⟩

abbrev nBuf : Space → Nat
  | .hbm => 179
  | .vmem => 0
  | .smem => 0
  | _ => 0

abbrev hbmTy0_0 (i : Nat) : BufTy := match i % 128 with
  | 0 => ⟨S8x4096x3, .f32⟩
  | 1 => ⟨S8x4096x3, .f32⟩
  | 2 => ⟨S8x512, .f32⟩
  | 3 => ⟨S8, .f32⟩
  | 4 => ⟨S512x256, .f32⟩
  | 5 => ⟨S256, .f32⟩
  | 6 => ⟨S256x128, .f32⟩
  | 7 => ⟨S128, .f32⟩
  | 8 => ⟨S128x6, .f32⟩
  | 9 => ⟨S6, .f32⟩
  | 10 => ⟨S8, .i32⟩
  | 11 => ⟨S8x4096x3, .f32⟩
  | 12 => ⟨S_, .f32⟩
  | 13 => ⟨S8x4096, .f32⟩
  | 14 => ⟨S8x4096x1, .f32⟩
  | 15 => ⟨S8x4096x3, .f32⟩
  | 16 => ⟨S_, .f32⟩
  | 17 => ⟨S8x4096, .f32⟩
  | 18 => ⟨S8x1x4096, .f32⟩
  | 19 => ⟨S8x4096x4096, .f32⟩
  | 20 => ⟨S8x4096x4096, .f32⟩
  | 21 => ⟨S8x4096x4096, .f32⟩
  | 22 => ⟨S8x4096x4096, .f32⟩
  | 23 => ⟨S_, .f32⟩
  | 24 => ⟨S8x4096x4096, .f32⟩
  | 25 => ⟨S8x4096x4096, .f32⟩
  | 26 => ⟨S8x4096x4096, .f32⟩
  | 27 => ⟨S_, .f32⟩
  | 28 => ⟨S8x4096, .f32⟩
  | 29 => ⟨S_, .f32⟩
  | 30 => ⟨S8x4096, .f32⟩
  | 31 => ⟨S8x4096, .f32⟩
  | 32 => ⟨S_, .f32⟩
  | 33 => ⟨S8x4096, .f32⟩
  | 34 => ⟨S8x4096, .f32⟩
  | 35 => ⟨S8x4096, .f32⟩
  | 36 => ⟨S8x4096, .f32⟩
  | 37 => ⟨S_, .f32⟩
  | 38 => ⟨S8x4096, .f32⟩
  | 39 => ⟨S8x4096, .f32⟩
  | 40 => ⟨S8x4096, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S_, .f32⟩
  | 78 => ⟨S8, .f32⟩
  | 79 => ⟨S8, .f32⟩
  | 80 => ⟨S8, .f32⟩
  | 81 => ⟨S_, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S8, .f32⟩
  | 95 => ⟨S8, .f32⟩
  | 96 => ⟨S_, .f32⟩
  | 97 => ⟨S8, .f32⟩
  | 98 => ⟨S8, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S8, .f32⟩
  | 107 => ⟨S8, .f32⟩
  | 108 => ⟨S_, .f32⟩
  | 109 => ⟨S_, .f32⟩
  | 110 => ⟨S_, .f32⟩
  | 111 => ⟨S_, .f32⟩
  | 112 => ⟨S8x256, .f32⟩
  | 113 => ⟨S1x256, .f32⟩
  | 114 => ⟨S8x256, .f32⟩
  | 115 => ⟨S8x256, .f32⟩
  | 116 => ⟨S_, .f32⟩
  | 117 => ⟨S8x256, .f32⟩
  | 118 => ⟨S8x256, .f32⟩
  | 119 => ⟨S8x128, .f32⟩
  | 120 => ⟨S1x128, .f32⟩
  | 121 => ⟨S8x128, .f32⟩
  | 122 => ⟨S8x128, .f32⟩
  | 123 => ⟨S_, .f32⟩
  | 124 => ⟨S8x128, .f32⟩
  | 125 => ⟨S8x128, .f32⟩
  | 126 => ⟨S8x6, .f32⟩
  | 127 => ⟨S1x6, .f32⟩
  | _ => ⟨S8x4096x3, .f32⟩

abbrev hbmTy0_1 (i : Nat) : BufTy := match i % 128 with
  | 0 => ⟨S8x6, .f32⟩
  | 1 => ⟨S8x6, .f32⟩
  | 2 => ⟨S_, .f32⟩
  | 3 => ⟨S8, .f32⟩
  | 4 => ⟨S_, .f32⟩
  | 5 => ⟨S8, .f32⟩
  | 6 => ⟨S8, .f32⟩
  | 7 => ⟨S8x1, .f32⟩
  | 8 => ⟨S8x6, .f32⟩
  | 9 => ⟨S8x6, .f32⟩
  | 10 => ⟨S8x6, .f32⟩
  | 11 => ⟨S_, .f32⟩
  | 12 => ⟨S8, .f32⟩
  | 13 => ⟨S8x1, .f32⟩
  | 14 => ⟨S8x1, .f32⟩
  | 15 => ⟨S8x6, .f32⟩
  | 16 => ⟨S8x6, .f32⟩
  | 17 => ⟨S8x1, .i32⟩
  | 18 => ⟨S_, .i32⟩
  | 19 => ⟨S8x1, .i32⟩
  | 20 => ⟨S8x1, .i1⟩
  | 21 => ⟨S_, .i32⟩
  | 22 => ⟨S8x1, .i32⟩
  | 23 => ⟨S8x1, .i32⟩
  | 24 => ⟨S8x1, .i32⟩
  | 25 => ⟨S8x1x1, .i32⟩
  | 26 => ⟨S1, .i32⟩
  | 27 => ⟨S_, .i32⟩
  | 28 => ⟨S8x1x1, .i32⟩
  | 29 => ⟨S8x1x1, .i1⟩
  | 30 => ⟨S1x1x1, .i32⟩
  | 31 => ⟨S8x1x1, .i32⟩
  | 32 => ⟨S8x1x1, .i1⟩
  | 33 => ⟨S8x1x1, .i1⟩
  | 34 => ⟨S_, .i1⟩
  | 35 => ⟨S8x1, .i1⟩
  | 36 => ⟨S8x1, .f32⟩
  | 37 => ⟨S_, .f32⟩
  | 38 => ⟨S8x1, .f32⟩
  | 39 => ⟨S8x1, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_cst_8 : Ref sig .tc := ⟨.hbm, 45, rfl⟩
abbrev main_v25 : Ref sig .tc := ⟨.hbm, 46, rfl⟩
abbrev main_cst_9 : Ref sig .tc := ⟨.hbm, 47, rfl⟩
abbrev main_v26 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩
abbrev main_cst_11 : Ref sig .tc := ⟨.hbm, 52, rfl⟩
abbrev main_v29 : Ref sig .tc := ⟨.hbm, 53, rfl⟩
abbrev main_cst_12 : Ref sig .tc := ⟨.hbm, 54, rfl⟩
abbrev main_v30 : Ref sig .tc := ⟨.hbm, 55, rfl⟩
abbrev main_cst_13 : Ref sig .tc := ⟨.hbm, 56, rfl⟩
abbrev main_v31 : Ref sig .tc := ⟨.hbm, 57, rfl⟩
abbrev main_cst_14 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_15 : Ref sig .tc := ⟨.hbm, 62, rfl⟩
abbrev main_v35 : Ref sig .tc := ⟨.hbm, 63, rfl⟩
abbrev main_v36 : Ref sig .tc := ⟨.hbm, 64, rfl⟩
abbrev main_cst_16 : Ref sig .tc := ⟨.hbm, 65, rfl⟩
abbrev main_v37 : Ref sig .tc := ⟨.hbm, 66, rfl⟩
abbrev main_cst_17 : Ref sig .tc := ⟨.hbm, 67, rfl⟩
abbrev main_v38 : Ref sig .tc := ⟨.hbm, 68, rfl⟩
abbrev main_v39 : Ref sig .tc := ⟨.hbm, 69, rfl⟩
abbrev main_cst_18 : Ref sig .tc := ⟨.hbm, 70, rfl⟩
abbrev main_v40 : Ref sig .tc := ⟨.hbm, 71, rfl⟩
abbrev main_cst_19 : Ref sig .tc := ⟨.hbm, 72, rfl⟩
abbrev main_v41 : Ref sig .tc := ⟨.hbm, 73, rfl⟩
abbrev main_v42 : Ref sig .tc := ⟨.hbm, 74, rfl⟩
abbrev main_cst_20 : Ref sig .tc := ⟨.hbm, 75, rfl⟩
abbrev main_v43 : Ref sig .tc := ⟨.hbm, 76, rfl⟩
abbrev main_cst_21 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_22 : Ref sig .tc := ⟨.hbm, 81, rfl⟩
abbrev main_v47 : Ref sig .tc := ⟨.hbm, 82, rfl⟩
abbrev main_cst_23 : Ref sig .tc := ⟨.hbm, 83, rfl⟩
abbrev main_v48 : Ref sig .tc := ⟨.hbm, 84, rfl⟩
abbrev main_v49 : Ref sig .tc := ⟨.hbm, 85, rfl⟩
abbrev main_cst_24 : Ref sig .tc := ⟨.hbm, 86, rfl⟩
abbrev main_v50 : Ref sig .tc := ⟨.hbm, 87, rfl⟩
abbrev main_cst_25 : Ref sig .tc := ⟨.hbm, 88, rfl⟩
abbrev main_v51 : Ref sig .tc := ⟨.hbm, 89, rfl⟩
abbrev main_v52 : Ref sig .tc := ⟨.hbm, 90, rfl⟩
abbrev main_cst_26 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_27 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_28 : Ref sig .tc := ⟨.hbm, 100, rfl⟩
abbrev main_v60 : Ref sig .tc := ⟨.hbm, 101, rfl⟩
abbrev main_v61 : Ref sig .tc := ⟨.hbm, 102, rfl⟩
abbrev main_cst_29 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_30 : Ref sig .tc := ⟨.hbm, 108, rfl⟩
abbrev main_v66 : Ref sig .tc := ⟨.hbm, 109, rfl⟩
abbrev main_cst_31 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_call0_cst : Ref sig .tc := ⟨.hbm, 116, rfl⟩
abbrev main_call0_v0 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call1_cst : Ref sig .tc := ⟨.hbm, 123, rfl⟩
abbrev main_call1_v0 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call2_cst : Ref sig .tc := ⟨.hbm, 130, rfl⟩
abbrev main_call2_v0 : Ref sig .tc := ⟨.hbm, 131, rfl⟩
abbrev main_call2_cst_0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_cst_1 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_v82 : Ref sig .tc := ⟨.hbm, 144, rfl⟩
abbrev main_v83 : Ref sig .tc := ⟨.hbm, 145, rfl⟩
abbrev main_call3_c : Ref sig .tc := ⟨.hbm, 146, rfl⟩
abbrev main_call3_v0 : Ref sig .tc := ⟨.hbm, 147, rfl⟩
abbrev main_call3_v1 : Ref sig .tc := ⟨.hbm, 148, rfl⟩
abbrev main_call3_c_0 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_c_1 : Ref sig .tc := ⟨.hbm, 154, rfl⟩
abbrev main_call3_c_2 : Ref sig .tc := ⟨.hbm, 155, rfl⟩
abbrev main_call3_v6 : Ref sig .tc := ⟨.hbm, 156, rfl⟩
abbrev main_call3_v7 : Ref sig .tc := ⟨.hbm, 157, rfl⟩
abbrev main_call3_v8 : Ref sig .tc := ⟨.hbm, 158, rfl⟩
abbrev main_call3_v9 : Ref sig .tc := ⟨.hbm, 159, rfl⟩
abbrev main_call3_v10 : Ref sig .tc := ⟨.hbm, 160, rfl⟩
abbrev main_call3_v11 : Ref sig .tc := ⟨.hbm, 161, rfl⟩
abbrev main_call3_c_3 : Ref sig .tc := ⟨.hbm, 162, rfl⟩
abbrev main_call3_v12 : Ref sig .tc := ⟨.hbm, 163, rfl⟩
abbrev main_call3_v13 : Ref sig .tc := ⟨.hbm, 164, rfl⟩
abbrev main_call3_cst : Ref sig .tc := ⟨.hbm, 165, rfl⟩
abbrev main_call3_v14 : Ref sig .tc := ⟨.hbm, 166, rfl⟩
abbrev main_v84 : Ref sig .tc := ⟨.hbm, 167, rfl⟩
abbrev main_cst_32 : Ref sig .tc := ⟨.hbm, 168, rfl⟩
abbrev main_v85 : Ref sig .tc := ⟨.hbm, 169, rfl⟩
abbrev main_cst_33 : Ref sig .tc := ⟨.hbm, 170, rfl⟩
abbrev main_v86 : Ref sig .tc := ⟨.hbm, 171, rfl⟩
abbrev main_v87 : Ref sig .tc := ⟨.hbm, 172, rfl⟩
abbrev main_cst_34 : Ref sig .tc := ⟨.hbm, 173, rfl⟩
abbrev main_v88 : Ref sig .tc := ⟨.hbm, 174, rfl⟩
abbrev main_cst_35 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  bcast_S_S8x4096 : S_.BroadcastsInDim S8x4096 (![] : Fin 0 → Fin S8x4096.rank)
  reducesTo_S8x4096_S_d0_1 : S8x4096.ReducesTo [0, 1] S_
  reducesTo_S8x4096_S8_d1 : S8x4096.ReducesTo [1] S8
  bcast_S_S8 : S_.BroadcastsInDim S8 (![] : Fin 0 → Fin S8.rank)
  reducesTo_S8_S_d0 : S8.ReducesTo [0] S_
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  bcast_S6_S1x6_1 : S6.BroadcastsInDim S1x6 (![1] : Fin 1 → Fin S1x6.rank)
  bcast_S1x6_S8x6_0_1 : S1x6.BroadcastsInDim S8x6 (![0, 1] : Fin 2 → Fin S8x6.rank)
  reducesTo_S8x6_S8_d1 : S8x6.ReducesTo [1] S8
  bcast_S8_S8x1_0 : S8.BroadcastsInDim S8x1 (![0] : Fin 1 → Fin S8x1.rank)
  bcast_S8x1_S8x6_0_1 : S8x1.BroadcastsInDim S8x6 (![0, 1] : Fin 2 → Fin S8x6.rank)
  bcast_S_S8x1 : S_.BroadcastsInDim S8x1 (![] : Fin 0 → Fin S8x1.rank)
  shapeCasts_S8x1_S8x1x1 : S8x1.ShapeCasts S8x1x1
  bcast_S_S8x1x1 : S_.BroadcastsInDim S8x1x1 (![] : Fin 0 → Fin S8x1x1.rank)
  bcast_S1_S1x1x1_2 : S1.BroadcastsInDim S1x1x1 (![2] : Fin 1 → Fin S1x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  reducesTo_S8x1_S_d0_1 : S8x1.ReducesTo [0, 1] S_
  dot_S8x4096x3_S8x4096x3_S8x4096x4096_2_2_1_1_0_0_wf : DotDims.WF S8x4096x3 S8x4096x3 S8x4096x4096 [2] [2] [1] [1] [0] [0]
  dot_S8x512_S512x256_S8x256_1_0_0_1_n_n_wf : DotDims.WF S8x512 S512x256 S8x256 [1] [0] [0] [1] [] []
  dot_S8x256_S256x128_S8x128_1_0_0_1_n_n_wf : DotDims.WF S8x256 S256x128 S8x128 [1] [0] [0] [1] [] []
  dot_S8x128_S128x6_S8x6_1_0_0_1_n_n_wf : DotDims.WF S8x128 S128x6 S8x6 [1] [0] [0] [1] [] []
  gather_S8x6_S8x1x1_S8x1_n_1_0_0_1_2_11_wf : GatherDims.WF S8x6 S8x1x1 S8x1 [] [1] [0] [1] [0] 2 ![1, 1]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf
def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x6_S8x6_1_0_0_1_n_n : DotDims S8x128 S128x6 S8x6 where
  lhsContracting := [1]
  rhsContracting := [0]
  lhsNonContracting := [0]
  rhsNonContracting := [1]
  lhsBatch := []
  rhsBatch := []
  wf := dot_S8x128_S128x6_S8x6_1_0_0_1_n_n_wf
def gather_S8x6_S8x1x1_S8x1_n_1_0_0_1_2_11 : GatherDims S8x6 S8x1x1 S8x1 where
  offsetDims := []
  collapsedSliceDims := [1]
  operandBatchingDims := [0]
  startIndicesBatchingDims := [0]
  startIndexMap := [1]
  indexVectorDim := 2
  sliceSizes := ![1, 1]
  wf := gather_S8x6_S8x1x1_S8x1_n_1_0_0_1_2_11_wf

class Facts : Prop extends Facts₀ where

variable [Facts]
-- ==== Proof.K.Kit.lean ====
/-
  The pallas_call's launch side, shared by the three control cases of the body: the contents the region is
  entered with (the launch memory: no host line precedes the region), @main as the region continued by its nine
  stretches of host lines, the three facts the launch asks of those lines (they touch unscoped TensorCore buffers
  only, allocate nothing, and write neither a window's array nor an argument), each window's block at a grid point,
  the two branch conditions of the body as functions of the point (the first M-tile of a batch element: point ≡ 0
  mod 4; the last: point ≡ 3 mod 4), where the two output windows are live, and the frame claim read off a frame run.
-/
import proofs.«406927_j11931419148433_3_alg».proof.Proof.Gen.Kernel.Launch
import proofs.«406927_j11931419148433_3_alg».proof.Proof.Gen.Kernel.Skeleton
import proofs.«406927_j11931419148433_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The region-entry contents of core `c`: the launch memory (no host operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The nine stretches of host lines after the region. -/
abbrev tailOps : List (List (HloOp τ sig (Elt F))) := [hostOps1, hostOps1_1, hostOps1_2, hostOps1_3, hostOps1_4, hostOps1_5, hostOps1_6, hostOps1_7, hostOps1_8]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

set_option maxRecDepth 200000 in
/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [] [hostOps1, hostOps1_1, hostOps1_2, hostOps1_3, hostOps1_4, hostOps1_5, hostOps1_6, hostOps1_7, hostOps1_8] (by simp only [List.Forall])
    (by simp only [List.Forall]) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- The buffers the frame claim and the launch speak of: the eleven arguments and the two result arrays of the region.
    No later line writes any of them: each line writes its own result buffer only. -/
abbrev kept : List (Ref sig .tc) := [main_arg0, main_arg1, main_arg2, main_arg3, main_arg4, main_arg5, main_arg6, main_arg7, main_arg8, main_arg9, main_arg10, main_v0_0, main_v0_1]

set_option maxHeartbeats 4000000 in
set_option maxRecDepth 65536 in
theorem hostOps1_keeps : (hostOps1 : List (HloOp τ sig (Elt F))).Forall fun op => (kept.Forall fun b => Proc.devRef .tc b ∉ op.writes) := by
  simp only [kept, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_1_keeps : (hostOps1_1 : List (HloOp τ sig (Elt F))).Forall fun op => (kept.Forall fun b => Proc.devRef .tc b ∉ op.writes) := by
  simp only [kept, hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_2_keeps : (hostOps1_2 : List (HloOp τ sig (Elt F))).Forall fun op => (kept.Forall fun b => Proc.devRef .tc b ∉ op.writes) := by
  simp only [kept, hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_3_keeps : (hostOps1_3 : List (HloOp τ sig (Elt F))).Forall fun op => (kept.Forall fun b => Proc.devRef .tc b ∉ op.writes) := by
  simp only [kept, hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_4_keeps : (hostOps1_4 : List (HloOp τ sig (Elt F))).Forall fun op => (kept.Forall fun b => Proc.devRef .tc b ∉ op.writes) := by
  simp only [kept, hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_5_keeps : (hostOps1_5 : List (HloOp τ sig (Elt F))).Forall fun op => (kept.Forall fun b => Proc.devRef .tc b ∉ op.writes) := by
  simp only [kept, hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_6_keeps : (hostOps1_6 : List (HloOp τ sig (Elt F))).Forall fun op => (kept.Forall fun b => Proc.devRef .tc b ∉ op.writes) := by
  simp only [kept, hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_7_keeps : (hostOps1_7 : List (HloOp τ sig (Elt F))).Forall fun op => (kept.Forall fun b => Proc.devRef .tc b ∉ op.writes) := by
  simp only [kept, hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_8_keeps : (hostOps1_8 : List (HloOp τ sig (Elt F))).Forall fun op => (kept.Forall fun b => Proc.devRef .tc b ∉ op.writes) := by
  simp only [kept, hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keeps : ∀ op ∈ (tailOps : List (List (HloOp τ sig (Elt F)))).flatten, (kept.Forall fun b => Proc.devRef .tc b ∉ op.writes) := by
  intro op hop
  obtain ⟨ops, hops, hop⟩ := List.mem_flatten.mp hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

theorem tail_keeps_of {b : Ref sig .tc} (hb : b ∈ (kept : List (Ref sig .tc))) :
    ∀ op ∈ (tailOps : List (List (HloOp τ sig (Elt F)))).flatten, Proc.devRef .tc b ∉ op.writes :=
  fun op hop => (List.forall_iff_forall_mem.mp (tail_keeps op hop)) b hb

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps : List (List (HloOp τ sig (Elt F)))).flatten := List.mem_flatten.mpr ⟨ops, hops, hop⟩
  fin_cases w
  · exact tail_keeps_of (b := main_arg0) (by decide) op hmem
  · exact tail_keeps_of (b := main_arg1) (by decide) op hmem
  · exact tail_keeps_of (b := main_v0_0) (by decide) op hmem
  · exact tail_keeps_of (b := main_v0_1) (by decide) op hmem

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- An argument no window stages ends as launched: no later line writes it, and the region's exit leaves it alone. -/
theorem W_arg (dats : (p : Fin 1) → (c : Dev nD) → Dat τ (Elt F) Unit ℕ (UR sig nD τ) ℕ (cfgs p) c) (c : Dev nD)
    (a : Ref sig .tc) (ha : a ∈ (kept : List (Ref sig .tc))) (hne : ∀ w, Pipeline.arrRef spec0 w ≠ a) :
    Pipeline.afterTail₀ cfgs dats 0 (V0 m) tailOps c a = m ((c : Thread nD τ).loc a) := by
  unfold Pipeline.afterTail₀
  rw [StableHlo.after_of_forall_not_mem (b := Proc.devRef .tc a) _ _ (tail_keeps_of ha),
    Pipeline.withArrays_of_ne _ c (V0 m c) _ a hne]
  rfl

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_arg m dats c main_arg2 (by decide) (by decide)),
    ((h c).2 main_arg3 (Pipeline.mem_restRefs_of main_arg3 (by decide) (by decide))).trans (W_arg m dats c main_arg3 (by decide) (by decide)),
    ((h c).2 main_arg4 (Pipeline.mem_restRefs_of main_arg4 (by decide) (by decide))).trans (W_arg m dats c main_arg4 (by decide) (by decide)),
    ((h c).2 main_arg5 (Pipeline.mem_restRefs_of main_arg5 (by decide) (by decide))).trans (W_arg m dats c main_arg5 (by decide) (by decide)),
    ((h c).2 main_arg6 (Pipeline.mem_restRefs_of main_arg6 (by decide) (by decide))).trans (W_arg m dats c main_arg6 (by decide) (by decide)),
    ((h c).2 main_arg7 (Pipeline.mem_restRefs_of main_arg7 (by decide) (by decide))).trans (W_arg m dats c main_arg7 (by decide) (by decide)),
    ((h c).2 main_arg8 (Pipeline.mem_restRefs_of main_arg8 (by decide) (by decide))).trans (W_arg m dats c main_arg8 (by decide) (by decide)),
    ((h c).2 main_arg9 (Pipeline.mem_restRefs_of main_arg9 (by decide) (by decide))).trans (W_arg m dats c main_arg9 (by decide) (by decide)),
    ((h c).2 main_arg10 (Pipeline.mem_restRefs_of main_arg10 (by decide) (by decide))).trans (W_arg m dats c main_arg10 (by decide) (by decide))⟩) h

/-! ## The body's branch conditions -/

/-- The body's first branch (reset the running minimum): taken on the first M-tile of a batch element. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second branch (write the running minimum out): taken on the last M-tile of a batch element. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where the second branch is not taken the first output's window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1x1x4096 .f32 := (Memref.whole cc0_stg2_0 : Memref sig .tc .vmem S1x1x4096 .f32).view
abbrev VO0_3 : View sig .tc .vmem S1x1x1024 .f32 := (Memref.whole cc0_stg3_0 : Memref sig .tc .vmem S1x1x1024 .f32).view
abbrev ms0_0 (t : Fin cfg0.N) : Memref sig .tc .vmem S1x4096x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
/-- The scratch that carries the running minimum between points. -/
abbrev scM0_0 : Memref sig .tc .vmem S4096x1 .f32 := Memref.whole cc0_scratch0
abbrev VS0_0 : View sig .tc .vmem S4096x1 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The kernel body at a grid point of case A (the first M-tile of a batch element: the running minimum is reset to +∞, then lowered by this tile's row minima; the per-target minima of the tile are stored; the first output is left alone), as a triple on whole staging memrefs: what each buffer
  the body stores into ends with is a list of pieces the symbolic run finds.
-/
import proofs.«406927_j11931419148433_3_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: the two inputs' staging memrefs hold their blocks and are handed back as they were; the second output's
    memref is taken at any contents and handed back with the body's pieces written; the scratch likewise (taken at
    any contents); the first output's memref is handed back untouched. -/
noncomputable def kernelRun0_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) :
    Σ' (L2 : List (View.Piece (Elt F) S1x1x4096 .f32)) (L3 : List (View.Piece (Elt F) S1x1x1024 .f32)), { LS0 : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.RunB.lean ====
/-
  The kernel body at a grid point of case B (a middle M-tile: the running minimum the point before left is lowered by this tile's row minima; the per-target minima of the tile are stored; the first output is left alone), as a triple on whole staging memrefs: what each buffer
  the body stores into ends with is a list of pieces the symbolic run finds.
-/
import proofs.«406927_j11931419148433_3_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the two inputs' staging memrefs hold their blocks and are handed back as they were; the second output's
    memref is taken at any contents and handed back with the body's pieces written; the scratch likewise (taken at
    the contents the point before left); the first output's memref is handed back untouched. -/
noncomputable def kernelRun0_B (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) :
    Σ' (L2 : List (View.Piece (Elt F) S1x1x4096 .f32)) (L3 : List (View.Piece (Elt F) S1x1x1024 .f32)), { LS0 : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.RunC.lean ====
/-
  The kernel body at a grid point of case C (the last M-tile of a batch element: the running minimum is lowered by this tile's row minima and written, transposed, into the first output; the per-target minima of the tile are stored), as a triple on whole staging memrefs: what each buffer
  the body stores into ends with is a list of pieces the symbolic run finds.
-/
import proofs.«406927_j11931419148433_3_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the two inputs' staging memrefs hold their blocks and are handed back as they were; the second output's
    memref is taken at any contents and handed back with the body's pieces written; the scratch likewise (taken at
    the contents the point before left); the first output's memref is taken at any contents and handed back with its piece written. -/
noncomputable def kernelRun0_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) :
    Σ' (L2 : List (View.Piece (Elt F) S1x1x4096 .f32)) (L3 : List (View.Piece (Elt F) S1x1x1024 .f32)), { LS0 : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Fr

end
-- ==== Proof.K.Frame.lean ====
/-
  The frame of the pallas_call with its host tail: what the two outputs' staging buffers and the scratch hold after
  the body at each grid point (by recursion on the point: the running minimum of case B and C is taken over what the
  point before left), the region invariant that carries the scratch from point to point, the body obligation by
  case, the frame run, and the frame claim — the eleven arguments end as launched.
-/
import proofs.«406927_j11931419148433_3_alg».proof.Proof.K.RunA
import proofs.«406927_j11931419148433_3_alg».proof.Proof.K.RunB
import proofs.«406927_j11931419148433_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the first output's staging buffer (nothing is stored: a placeholder no one reads, the window being idle there). -/
def out0_A_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) : Vec F S1x1x4096 .f32 :=
  VO0_2.read (Elt F) (VO0_2.writes (Elt F) VO0_2.junk (kernelRun0_A c i arg2 harg2 arg3 harg3 arg4 harg4 arg5 harg5 arg6 harg6 hc0 hc1 x0 x1).1)

/-- The store into the second output covers its block. -/
theorem cover0_A_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) (y : S1x1x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x1024.size (by sl_kernel_rfl) y
/-- What case A leaves in the second output's staging buffer. -/
def out0_A_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) : Vec F S1x1x1024 .f32 :=
  VO0_3.read (Elt F) (VO0_3.writes (Elt F) VO0_3.junk (kernelRun0_A c i arg2 harg2 arg3 harg3 arg4 harg4 arg5 harg5 arg6 harg6 hc0 hc1 x0 x1).2.1)

/-- The stores into the scratch cover it. -/
theorem scover0_A_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) (y : S4096x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S4096x1.size (by sl_kernel_rfl) y
/-- What case A leaves in the scratch. -/
def sout0_A_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) : Vec F S4096x1 .f32 :=
  VS0_0.read (Elt F) (VS0_0.writes (Elt F) VS0_0.junk (kernelRun0_A c i arg2 harg2 arg3 harg3 arg4 harg4 arg5 harg5 arg6 harg6 hc0 hc1 x0 x1).2.2.1)

/-- What case B leaves in the first output's staging buffer (nothing is stored: a placeholder no one reads, the window being idle there). -/
def out0_B_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) : Vec F S1x1x4096 .f32 :=
  VO0_2.read (Elt F) (VO0_2.writes (Elt F) VO0_2.junk (kernelRun0_B c i arg2 harg2 arg3 harg3 arg4 harg4 arg5 harg5 arg6 harg6 hc0 hc1 x0 x1 xs0).1)

/-- The store into the second output covers its block. -/
theorem cover0_B_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) (y : S1x1x1024.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1x1x1024.size (by sl_kernel_rfl) y
/-- What case B leaves in the second output's staging buffer. -/
def out0_B_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) : Vec F S1x1x1024 .f32 :=
  VO0_3.read (Elt F) (VO0_3.writes (Elt F) VO0_3.junk (kernelRun0_B c i arg2 harg2 arg3 harg3 arg4 harg4 arg5 harg5 arg6 harg6 hc0 hc1 x0 x1 xs0).2.1)

/-- The stores into the scratch cover it. -/
theorem scover0_B_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) (y : S4096x1.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S4096x1.size (by sl_kernel_rfl) y
/-- What case B leaves in the scratch. -/
def sout0_B_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) : Vec F S4096x1 .f32 :=
  VS0_0.read (Elt F) (VS0_0.writes (Elt F) VS0_0.junk (kernelRun0_B c i arg2 harg2 arg3 harg3 arg4 harg4 arg5 harg5 arg6 harg6 hc0 hc1 x0 x1 xs0).2.2.1)

/-- In case C the one store into the first output covers its block. -/
theorem cover0_C_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) (y : S1x1x4096.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1x1x4096.size (by sl_kernel_rfl) y
/-- What case C leaves in the first output's staging buffer. -/
def out0_C_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) : Vec F S1x1x4096 .f32 :=
  VO0_2.read (Elt F) (VO0_2.writes (Elt F) VO0_2.junk (kernelRun0_C c i arg2 harg2 arg3 harg3 arg4 harg4 arg5 harg5 arg6 harg6 hc0 hc1 x0 x1 xs0).1)

/-- The store into the second output covers its block. -/
theorem cover0_C_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) (y : S1x1x1024.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1x1x1024.size (by sl_kernel_rfl) y
/-- What case C leaves in the second output's staging buffer. -/
def out0_C_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) : Vec F S1x1x1024 .f32 :=
  VO0_3.read (Elt F) (VO0_3.writes (Elt F) VO0_3.junk (kernelRun0_C c i arg2 harg2 arg3 harg3 arg4 harg4 arg5 harg5 arg6 harg6 hc0 hc1 x0 x1 xs0).2.1)

/-- The stores into the scratch cover it. -/
theorem scover0_C_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) (y : S4096x1.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S4096x1.size (by sl_kernel_rfl) y
/-- What case C leaves in the scratch. -/
def sout0_C_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) : Vec F S4096x1 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## What the outputs and the scratch hold after each point -/

/-- After the body at position `n`: the first output's buffer, the second output's, the scratch. The case is the
    point's position in its batch element (first tile, middle, last); cases B and C read the scratch the point
    before left. -/
def outsAt0 (c : Dev nD) : (n : ℕ) → n < cfg0.N → Vec F S1x1x4096 .f32 × Vec F S1x1x1024 .f32 × Vec F S4096x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block, each output's at
    `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the case is decided by the point's position in its batch element; the inputs' memrefs hold
    their blocks; the invariant hands the scratch over at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 2 t (idleAt0_2 t hc1) (noFlush0_2 t hc1)]
    rw [outsAt0_A m c t h0 h1]
    unfold out0_A_3 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
  · have hz : t.val ≠ 0 := by omega
    by_cases h1 : t.val % 4 = 3
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1]
      unfold out0_C_2 out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold out0_B_3 sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) _).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
set_option maxRecDepth 200000 in
/-- Every weakly fair execution of @main terminates; every final state has each array of the pipeline at what the
    proof data's write-backs leave and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.KI.Kit.lean ====
/-
  The pallas_call's launch side, shared by the three control cases of the body: the contents the region is
  entered with (the launch memory: no host line precedes the region), @main as the region continued by its nine
  stretches of host lines, the three facts the launch asks of those lines (they touch unscoped TensorCore buffers
  only, allocate nothing, and write neither a window's array nor an argument), each window's block at a grid point,
  the two branch conditions of the body as functions of the point (the first M-tile of a batch element: point ≡ 0
  mod 4; the last: point ≡ 3 mod 4), where the two output windows are live, and the frame claim read off a frame run.
-/
import proofs.«406927_j11931419148433_3_alg».proof.Proof.Gen.KernelIdeal.Launch
import proofs.«406927_j11931419148433_3_alg».proof.Proof.Gen.KernelIdeal.Skeleton
import proofs.«406927_j11931419148433_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The region-entry contents of core `c`: the launch memory (no host operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The nine stretches of host lines after the region. -/
abbrev tailOps : List (List (HloOp τ sig (Elt F))) := [hostOps1, hostOps1_1, hostOps1_2, hostOps1_3, hostOps1_4, hostOps1_5, hostOps1_6, hostOps1_7, hostOps1_8]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

set_option maxRecDepth 200000 in
/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [] [hostOps1, hostOps1_1, hostOps1_2, hostOps1_3, hostOps1_4, hostOps1_5, hostOps1_6, hostOps1_7, hostOps1_8] (by simp only [List.Forall])
    (by simp only [List.Forall]) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- The buffers the frame claim and the launch speak of: the eleven arguments and the two result arrays of the region.
    No later line writes any of them: each line writes its own result buffer only. -/
abbrev kept : List (Ref sig .tc) := [main_arg0, main_arg1, main_arg2, main_arg3, main_arg4, main_arg5, main_arg6, main_arg7, main_arg8, main_arg9, main_arg10, main_v0_0, main_v0_1]

set_option maxHeartbeats 4000000 in
set_option maxRecDepth 65536 in
theorem hostOps1_keeps : (hostOps1 : List (HloOp τ sig (Elt F))).Forall fun op => (kept.Forall fun b => Proc.devRef .tc b ∉ op.writes) := by
  simp only [kept, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_1_keeps : (hostOps1_1 : List (HloOp τ sig (Elt F))).Forall fun op => (kept.Forall fun b => Proc.devRef .tc b ∉ op.writes) := by
  simp only [kept, hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_2_keeps : (hostOps1_2 : List (HloOp τ sig (Elt F))).Forall fun op => (kept.Forall fun b => Proc.devRef .tc b ∉ op.writes) := by
  simp only [kept, hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_3_keeps : (hostOps1_3 : List (HloOp τ sig (Elt F))).Forall fun op => (kept.Forall fun b => Proc.devRef .tc b ∉ op.writes) := by
  simp only [kept, hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_4_keeps : (hostOps1_4 : List (HloOp τ sig (Elt F))).Forall fun op => (kept.Forall fun b => Proc.devRef .tc b ∉ op.writes) := by
  simp only [kept, hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_5_keeps : (hostOps1_5 : List (HloOp τ sig (Elt F))).Forall fun op => (kept.Forall fun b => Proc.devRef .tc b ∉ op.writes) := by
  simp only [kept, hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_6_keeps : (hostOps1_6 : List (HloOp τ sig (Elt F))).Forall fun op => (kept.Forall fun b => Proc.devRef .tc b ∉ op.writes) := by
  simp only [kept, hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_7_keeps : (hostOps1_7 : List (HloOp τ sig (Elt F))).Forall fun op => (kept.Forall fun b => Proc.devRef .tc b ∉ op.writes) := by
  simp only [kept, hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
set_option maxRecDepth 65536 in
theorem hostOps1_8_keeps : (hostOps1_8 : List (HloOp τ sig (Elt F))).Forall fun op => (kept.Forall fun b => Proc.devRef .tc b ∉ op.writes) := by
  simp only [kept, hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keeps : ∀ op ∈ (tailOps : List (List (HloOp τ sig (Elt F)))).flatten, (kept.Forall fun b => Proc.devRef .tc b ∉ op.writes) := by
  intro op hop
  obtain ⟨ops, hops, hop⟩ := List.mem_flatten.mp hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

theorem tail_keeps_of {b : Ref sig .tc} (hb : b ∈ (kept : List (Ref sig .tc))) :
    ∀ op ∈ (tailOps : List (List (HloOp τ sig (Elt F)))).flatten, Proc.devRef .tc b ∉ op.writes :=
  fun op hop => (List.forall_iff_forall_mem.mp (tail_keeps op hop)) b hb

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps : List (List (HloOp τ sig (Elt F)))).flatten := List.mem_flatten.mpr ⟨ops, hops, hop⟩
  fin_cases w
  · exact tail_keeps_of (b := main_arg0) (by decide) op hmem
  · exact tail_keeps_of (b := main_arg1) (by decide) op hmem
  · exact tail_keeps_of (b := main_v0_0) (by decide) op hmem
  · exact tail_keeps_of (b := main_v0_1) (by decide) op hmem

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- An argument no window stages ends as launched: no later line writes it, and the region's exit leaves it alone. -/
theorem W_arg (dats : (p : Fin 1) → (c : Dev nD) → Dat τ (Elt F) Unit ℕ (UR sig nD τ) ℕ (cfgs p) c) (c : Dev nD)
    (a : Ref sig .tc) (ha : a ∈ (kept : List (Ref sig .tc))) (hne : ∀ w, Pipeline.arrRef spec0 w ≠ a) :
    Pipeline.afterTail₀ cfgs dats 0 (V0 m) tailOps c a = m ((c : Thread nD τ).loc a) := by
  unfold Pipeline.afterTail₀
  rw [StableHlo.after_of_forall_not_mem (b := Proc.devRef .tc a) _ _ (tail_keeps_of ha),
    Pipeline.withArrays_of_ne _ c (V0 m c) _ a hne]
  rfl

/-- The frame claim's post from a frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_arg m dats c main_arg2 (by decide) (by decide)),
    ((h c).2 main_arg3 (Pipeline.mem_restRefs_of main_arg3 (by decide) (by decide))).trans (W_arg m dats c main_arg3 (by decide) (by decide)),
    ((h c).2 main_arg4 (Pipeline.mem_restRefs_of main_arg4 (by decide) (by decide))).trans (W_arg m dats c main_arg4 (by decide) (by decide)),
    ((h c).2 main_arg5 (Pipeline.mem_restRefs_of main_arg5 (by decide) (by decide))).trans (W_arg m dats c main_arg5 (by decide) (by decide)),
    ((h c).2 main_arg6 (Pipeline.mem_restRefs_of main_arg6 (by decide) (by decide))).trans (W_arg m dats c main_arg6 (by decide) (by decide)),
    ((h c).2 main_arg7 (Pipeline.mem_restRefs_of main_arg7 (by decide) (by decide))).trans (W_arg m dats c main_arg7 (by decide) (by decide)),
    ((h c).2 main_arg8 (Pipeline.mem_restRefs_of main_arg8 (by decide) (by decide))).trans (W_arg m dats c main_arg8 (by decide) (by decide)),
    ((h c).2 main_arg9 (Pipeline.mem_restRefs_of main_arg9 (by decide) (by decide))).trans (W_arg m dats c main_arg9 (by decide) (by decide)),
    ((h c).2 main_arg10 (Pipeline.mem_restRefs_of main_arg10 (by decide) (by decide))).trans (W_arg m dats c main_arg10 (by decide) (by decide))⟩) h

/-! ## The body's branch conditions -/

/-- The body's first branch (reset the running minimum): taken on the first M-tile of a batch element. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second branch (write the running minimum out): taken on the last M-tile of a batch element. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where the second branch is not taken the first output's window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1x1x4096 .f32 := (Memref.whole cc0_stg2_0 : Memref sig .tc .vmem S1x1x4096 .f32).view
abbrev VO0_3 : View sig .tc .vmem S1x1x1024 .f32 := (Memref.whole cc0_stg3_0 : Memref sig .tc .vmem S1x1x1024 .f32).view
abbrev ms0_0 (t : Fin cfg0.N) : Memref sig .tc .vmem S1x4096x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
/-- The scratch that carries the running minimum between points. -/
abbrev scM0_0 : Memref sig .tc .vmem S4096x1 .f32 := Memref.whole cc0_scratch0
abbrev VS0_0 : View sig .tc .vmem S4096x1 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The kernel body at a grid point of case A (the first M-tile of a batch element: the running minimum is reset to +∞, then lowered by this tile's row minima; the per-target minima of the tile are stored; the first output is left alone), as a triple on whole staging memrefs: what each buffer
  the body stores into ends with is a list of pieces the symbolic run finds.
-/
import proofs.«406927_j11931419148433_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A: the two inputs' staging memrefs hold their blocks and are handed back as they were; the second output's
    memref is taken at any contents and handed back with the body's pieces written; the scratch likewise (taken at
    any contents); the first output's memref is handed back untouched. -/
noncomputable def kernelRun0_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) :
    Σ' (L2 : List (View.Piece (Elt F) S1x1x4096 .f32)) (L3 : List (View.Piece (Elt F) S1x1x1024 .f32)), { LS0 : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.RunB.lean ====
/-
  The kernel body at a grid point of case B (a middle M-tile: the running minimum the point before left is lowered by this tile's row minima; the per-target minima of the tile are stored; the first output is left alone), as a triple on whole staging memrefs: what each buffer
  the body stores into ends with is a list of pieces the symbolic run finds.
-/
import proofs.«406927_j11931419148433_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B: the two inputs' staging memrefs hold their blocks and are handed back as they were; the second output's
    memref is taken at any contents and handed back with the body's pieces written; the scratch likewise (taken at
    the contents the point before left); the first output's memref is handed back untouched. -/
noncomputable def kernelRun0_B (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) :
    Σ' (L2 : List (View.Piece (Elt F) S1x1x4096 .f32)) (L3 : List (View.Piece (Elt F) S1x1x1024 .f32)), { LS0 : List (View.Piece (Elt F) S4096x1 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, ?_, fun xi2 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.RunC.lean ====
/-
  The kernel body at a grid point of case C (the last M-tile of a batch element: the running minimum is lowered by this tile's row minima and written, transposed, into the first output; the per-target minima of the tile are stored), as a triple on whole staging memrefs: what each buffer
  the body stores into ends with is a list of pieces the symbolic run finds.
-/
import proofs.«406927_j11931419148433_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C: the two inputs' staging memrefs hold their blocks and are handed back as they were; the second output's
    memref is taken at any contents and handed back with the body's pieces written; the scratch likewise (taken at
    the contents the point before left); the first output's memref is taken at any contents and handed back with its piece written. -/
noncomputable def kernelRun0_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) :
    Σ' (L2 : List (View.Piece (Elt F) S1x1x4096 .f32)) (L3 : List (View.Piece (Elt F) S1x1x1024 .f32)), { LS0 : List (View.Piece (Elt F) S4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Fr

end
-- ==== Proof.KI.Frame.lean ====
/-
  The frame of the pallas_call with its host tail: what the two outputs' staging buffers and the scratch hold after
  the body at each grid point (by recursion on the point: the running minimum of case B and C is taken over what the
  point before left), the region invariant that carries the scratch from point to point, the body obligation by
  case, the frame run, and the frame claim — the eleven arguments end as launched.
-/
import proofs.«406927_j11931419148433_3_alg».proof.Proof.KI.RunA
import proofs.«406927_j11931419148433_3_alg».proof.Proof.KI.RunB
import proofs.«406927_j11931419148433_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the first output's staging buffer (nothing is stored: a placeholder no one reads, the window being idle there). -/
def out0_A_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) : Vec F S1x1x4096 .f32 :=
  VO0_2.read (Elt F) (VO0_2.writes (Elt F) VO0_2.junk (kernelRun0_A c i arg2 harg2 arg3 harg3 arg4 harg4 arg5 harg5 arg6 harg6 hc0 hc1 x0 x1).1)

/-- The store into the second output covers its block. -/
theorem cover0_A_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) (y : S1x1x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x1024.size (by sl_kernel_rfl) y
/-- What case A leaves in the second output's staging buffer. -/
def out0_A_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) : Vec F S1x1x1024 .f32 :=
  VO0_3.read (Elt F) (VO0_3.writes (Elt F) VO0_3.junk (kernelRun0_A c i arg2 harg2 arg3 harg3 arg4 harg4 arg5 harg5 arg6 harg6 hc0 hc1 x0 x1).2.1)

/-- The stores into the scratch cover it. -/
theorem scover0_A_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) (y : S4096x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S4096x1.size (by sl_kernel_rfl) y
/-- What case A leaves in the scratch. -/
def sout0_A_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) : Vec F S4096x1 .f32 :=
  VS0_0.read (Elt F) (VS0_0.writes (Elt F) VS0_0.junk (kernelRun0_A c i arg2 harg2 arg3 harg3 arg4 harg4 arg5 harg5 arg6 harg6 hc0 hc1 x0 x1).2.2.1)

/-- What case B leaves in the first output's staging buffer (nothing is stored: a placeholder no one reads, the window being idle there). -/
def out0_B_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) : Vec F S1x1x4096 .f32 :=
  VO0_2.read (Elt F) (VO0_2.writes (Elt F) VO0_2.junk (kernelRun0_B c i arg2 harg2 arg3 harg3 arg4 harg4 arg5 harg5 arg6 harg6 hc0 hc1 x0 x1 xs0).1)

/-- The store into the second output covers its block. -/
theorem cover0_B_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) (y : S1x1x1024.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1x1x1024.size (by sl_kernel_rfl) y
/-- What case B leaves in the second output's staging buffer. -/
def out0_B_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) : Vec F S1x1x1024 .f32 :=
  VO0_3.read (Elt F) (VO0_3.writes (Elt F) VO0_3.junk (kernelRun0_B c i arg2 harg2 arg3 harg3 arg4 harg4 arg5 harg5 arg6 harg6 hc0 hc1 x0 x1 xs0).2.1)

/-- The stores into the scratch cover it. -/
theorem scover0_B_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) (y : S4096x1.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S4096x1.size (by sl_kernel_rfl) y
/-- What case B leaves in the scratch. -/
def sout0_B_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) : Vec F S4096x1 .f32 :=
  VS0_0.read (Elt F) (VS0_0.writes (Elt F) VS0_0.junk (kernelRun0_B c i arg2 harg2 arg3 harg3 arg4 harg4 arg5 harg5 arg6 harg6 hc0 hc1 x0 x1 xs0).2.2.1)

/-- In case C the one store into the first output covers its block. -/
theorem cover0_C_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) (y : S1x1x4096.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1x1x4096.size (by sl_kernel_rfl) y
/-- What case C leaves in the first output's staging buffer. -/
def out0_C_2 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) : Vec F S1x1x4096 .f32 :=
  VO0_2.read (Elt F) (VO0_2.writes (Elt F) VO0_2.junk (kernelRun0_C c i arg2 harg2 arg3 harg3 arg4 harg4 arg5 harg5 arg6 harg6 hc0 hc1 x0 x1 xs0).1)

/-- The store into the second output covers its block. -/
theorem cover0_C_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) (y : S1x1x1024.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1x1x1024.size (by sl_kernel_rfl) y
/-- What case C leaves in the second output's staging buffer. -/
def out0_C_3 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) : Vec F S1x1x1024 .f32 :=
  VO0_3.read (Elt F) (VO0_3.writes (Elt F) VO0_3.junk (kernelRun0_C c i arg2 harg2 arg3 harg3 arg4 harg4 arg5 harg5 arg6 harg6 hc0 hc1 x0 x1 xs0).2.1)

/-- The stores into the scratch cover it. -/
theorem scover0_C_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) (y : S4096x1.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S4096x1.size (by sl_kernel_rfl) y
/-- What case C leaves in the scratch. -/
def sout0_C_0 (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) : Vec F S4096x1 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## What the outputs and the scratch hold after each point -/

/-- After the body at position `n`: the first output's buffer, the second output's, the scratch. The case is the
    point's position in its batch element (first tile, middle, last); cases B and C read the scratch the point
    before left. -/
def outsAt0 (c : Dev nD) : (n : ℕ) → n < cfg0.N → Vec F S1x1x4096 .f32 × Vec F S1x1x1024 .f32 × Vec F S4096x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block, each output's at
    `outsAt0`'s component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the case is decided by the point's position in its batch element; the inputs' memrefs hold
    their blocks; the invariant hands the scratch over at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dats m 0 c) 2 t (idleAt0_2 t hc1) (noFlush0_2 t hc1)]
    rw [outsAt0_A m c t h0 h1]
    unfold out0_A_3 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t)).2.2.2 _ Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _)
  · have hz : t.val ≠ 0 := by omega
    by_cases h1 : t.val % 4 = 3
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1]
      unfold out0_C_2 out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · have hc1 : ¬cond0_1 (grid0.coords t) := fun h => h1 ((hcond0_1 t).mp h)
      rw [Dat.leavesExact_idle (dats m 0 c) 2 t (idleAt0_2 t hc1) (noFlush0_2 t hc1)]
      rw [outsAt0_B m c t h0 h1]
      unfold out0_B_3 sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) _).2.2.2 _ Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _)
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
set_option maxRecDepth 200000 in
/-- Every weakly fair execution of @main terminates; every final state has each array of the pipeline at what the
    proof data's write-backs leave and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.Spec.lean ====
/-
  The mathematics both programs compute, over the extended reals.

  For a batch element b, a predicted point n and a target point k, with coordinates p = P[b,n,·] and t = T[b,k,·],
  the squared distance is taken in the expanded form  d(n,k) = (|p|² + |t|²) − 2·(p·t),  each three-term sum grouped
  from the left. The two results of the kernel are  minA[b,n] = min over k of d(n,k)  and  minB[b,k] = min over n of
  d(n,k),  each a fold of `min` from +∞. Nothing here needs finiteness: only that `min` is associative, commutative
  and idempotent, so a minimum over 4096 targets may be taken tile by tile.
-/
import Idealize.ShloMosaic.PureOps.Ideal
import Idealize.ShloMosaic.Lib.ValueIdx

noncomputable section

namespace Cert.Chamfer

open Idealize.ShloMosaic Idealize.ShloMosaic.ValueIdx

/-- The literal 2.0 of both programs, never evaluated. -/
abbrev two : EReal := Ideal.ofBits .f32 0x40000000#32
/-- The literal +∞ both minima start from. -/
abbrev pinf : EReal := Ideal.ofBits .f32 0x7F800000#32

/-- |x|² of a point, summed from the left. -/
def sq3 (x y z : EReal) : EReal := (x * x + y * y) + z * z
/-- x·x' of two points, summed from the left. -/
def dot3 (x y z x' y' z' : EReal) : EReal := (x * x' + y * y') + z * z'
/-- The squared distance in expanded form. -/
def dist (p0 p1 p2 t0 t1 t2 : EReal) : EReal := (sq3 p0 p1 p2 + sq3 t0 t1 t2) - two * dot3 p0 p1 p2 t0 t1 t2

/-- A point cloud batch: [8, 4096, 3]. -/
abbrev Cloud : Type := (⟨3, ![8, 4096, 3]⟩ : Shape).Idx → EReal

/-- d(n,k) for batch element b. -/
def D (P T : Cloud) (b : Fin 8) (n k : Fin 4096) : EReal :=
  dist (P (ix3 b n 0)) (P (ix3 b n 1)) (P (ix3 b n 2)) (T (ix3 b k 0)) (T (ix3 b k 1)) (T (ix3 b k 2))

/-- The nearest target's squared distance, per predicted point. -/
def minA (P T : Cloud) (b : Fin 8) (n : Fin 4096) : EReal :=
  (Finset.univ : Finset (Fin 4096)).fold min pinf (fun k => D P T b n k)
/-- The nearest predicted point's squared distance, per target point. -/
def minB (P T : Cloud) (b : Fin 8) (k : Fin 4096) : EReal :=
  (Finset.univ : Finset (Fin 4096)).fold min pinf (fun n => D P T b n k)

/-- Target k of M-tile j (four tiles of 1024 targets). -/
def tileIdx (j : Fin 4) (k : Fin 1024) : Fin 4096 := ⟨j.val * 1024 + k.val, by omega⟩
/-- The minimum of f over one tile, from +∞. -/
def tileMin (f : Fin 4096 → EReal) (j : Fin 4) : EReal :=
  (Finset.univ : Finset (Fin 1024)).fold min pinf (fun k => f (tileIdx j k))

/-- The two results as [8, 4096] arrays. -/
def arrA (P T : Cloud) : (⟨2, ![8, 4096]⟩ : Shape).Idx → EReal := fun i => minA P T (i 0) (i 1)
def arrB (P T : Cloud) : (⟨2, ![8, 4096]⟩ : Shape).Idx → EReal := fun i => minB P T (i 0) (i 1)

end Cert.Chamfer

end
-- ==== Proof.KI.Blocks.lean ====
/-
  Where the windows' blocks lie. Grid point t is M-tile j = t mod 4 of batch element b = t div 4. The first input's
  block at t is all of P[b]; the second input's is rows j·1024 … j·1024+1023 of T[b]; the first output's block is
  row b of its [8,1,4096] array, written back after the last tile; the second output's block is columns
  j·1024 … j·1024+1023 of row b, written back at every point.
-/
import proofs.«406927_j11931419148433_3_alg».proof.Proof.KI.Frame
import Idealize.ShloMosaic.Lib.Pipeline.Value
import Idealize.ShloMosaic.Lib.ValueIdx
import proofs.«406927_j11931419148433_3_alg».proof.Proof.Spec

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N32 : cfg0.N = 32 := N_0

/-- The batch element and the M-tile of a grid point. -/
def bOf (t : Fin cfg0.N) : Fin 8 := ⟨t.val / 4, by have h := t.isLt; have hN : cfg0.N = 32 := N_0; omega⟩
def jOf (t : Fin cfg0.N) : Fin 4 := ⟨t.val % 4, by omega⟩

/-- The printed index maps, decided over the grid. -/
theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)

/-- The first input's block at t, read at (0, n, d), is P[b, n, d]. -/
theorem iblk0_apply (c : Dev nD) (t : Fin cfg0.N) (n : Fin 4096) (d : Fin 3) :
    (iblk m c 0 t : Vec F S1x4096x3 .f32) (ix3 0 n d) = V m c main_arg0 (ix3 (bOf t) n d) := by
  obtain ⟨e0, e1, e2⟩ := idx0 t
  unfold iblk
  rw [View.read_apply]
  show V m c main_arg0 _ = V m c main_arg0 _
  refine congrArg (V m c main_arg0) ?_
  funext a; apply Fin.ext
  match a with
  | ⟨0, _⟩ => show win0_0.index t (0 : Fin 3) * 1 + 1 * 0 = t.val / 4; omega
  | ⟨1, _⟩ => show win0_0.index t (1 : Fin 3) * 4096 + 1 * n.val = n.val; omega
  | ⟨2, _⟩ => show win0_0.index t (2 : Fin 3) * 3 + 1 * d.val = d.val; omega

/-- The second input's block at t, read at (0, k, d), is T[b, j·1024 + k, d]. -/
theorem iblk1_apply (c : Dev nD) (t : Fin cfg0.N) (k : Fin 1024) (d : Fin 3) :
    (iblk m c 1 t : Vec F S1x1024x3 .f32) (ix3 0 k d) = V m c main_arg1 (ix3 (bOf t) (Cert.Chamfer.tileIdx (jOf t) k) d) := by
  obtain ⟨e0, e1, e2⟩ := idx1 t
  unfold iblk
  rw [View.read_apply]
  show V m c main_arg1 _ = V m c main_arg1 _
  refine congrArg (V m c main_arg1) ?_
  funext a; apply Fin.ext
  match a with
  | ⟨0, _⟩ => show win0_1.index t (0 : Fin 3) * 1 + 1 * 0 = t.val / 4; omega
  | ⟨1, _⟩ => show win0_1.index t (1 : Fin 3) * 1024 + 1 * k.val = t.val % 4 * 1024 + k.val; omega
  | ⟨2, _⟩ => show win0_1.index t (2 : Fin 3) * 3 + 1 * d.val = d.val; omega

/-- An index of the first output's array is in point t's block iff each coordinate is in the block's range. -/
theorem mem_blk2 (t : Fin cfg0.N) (i : S8x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v0_0).slice (win0_2.rect t)).set ↔ _
  rw [View.set_slice_whole, Rect.mem_set_unit]
  exact Iff.rfl
theorem mem_blk3 (t : Fin cfg0.N) (i : S8x1x4096.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v0_1).slice (win0_3.rect t)).set ↔ _
  rw [View.set_slice_whole, Rect.mem_set_unit]
  exact Iff.rfl

/-- The point that writes row b of the first output back: the last tile of batch element b. -/
def lastOf (b : Fin 8) : Fin cfg0.N := ⟨b.val * 4 + 3, by have hN : cfg0.N = 32 := N_0; have hb := b.isLt; omega⟩
/-- The point that writes column k of row b of the second output. -/
def ptOf (b : Fin 8) (k : Fin 4096) : Fin cfg0.N := ⟨b.val * 4 + k.val / 1024, by have hN : cfg0.N = 32 := N_0; have hb := b.isLt; have hk := k.isLt; omega⟩

theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  refine ⟨lastOf ⟨(i 0).val, h0⟩, (flush0_2 _).mpr (by show ((i 0).val * 4 + 3) % 4 = 3; omega), ?_⟩
  rw [mem_blk2]
  obtain ⟨e0, e1, e2⟩ := idx2 (lastOf ⟨(i 0).val, h0⟩)
  have hv : (lastOf ⟨(i 0).val, h0⟩).val = (i 0).val * 4 + 3 := rfl
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 4096 ≤ (i 2).val ∧ (i 2).val < win0_2.index _ (2 : Fin 3) * 4096 + 4096; omega

theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  refine ⟨ptOf ⟨(i 0).val, h0⟩ ⟨(i 2).val, h2⟩, flush0_3 _, ?_⟩
  rw [mem_blk3]
  obtain ⟨e0, e1, e2⟩ := idx3 (ptOf ⟨(i 0).val, h0⟩ ⟨(i 2).val, h2⟩)
  have hv : (ptOf ⟨(i 0).val, h0⟩ ⟨(i 2).val, h2⟩).val = (i 0).val * 4 + (i 2).val / 1024 := rfl
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 1024 ≤ (i 2).val ∧ (i 2).val < win0_3.index _ (2 : Fin 3) * 1024 + 1024; omega

end Cert.KernelIdeal.Val

end
-- ==== Proof.KI.Pieces.lean ====
/-
  What the kernel body leaves in each buffer it stores into, by control case, as a value of the blocks it read.

  Every store and load of the body goes through the whole-shape rectangle at zero offsets of its buffer, so the last
  store into a buffer leaves exactly its payload, and a load reads exactly the contents: the input blocks where the
  buffer was not stored into before, the earlier store's payload where it was. Hence, with m = k0_pay5 x0 x1 the
  tile's row minima and t = k0_pay6 x0 x1 its per-target minima:
    the second output's buffer ends at k0_pay2 t in all three cases;
    the scratch ends at k0_pay1 m (+∞ block) in case A (the reset is read back), at k0_pay1 m xs0 in cases B and C;
    the first output's buffer, stored into in case C only, ends at k0_pay3 of what the scratch ends at.
-/
import proofs.«406927_j11931419148433_3_alg».proof.Proof.KI.Frame
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 buffer, however spelt. -/
theorem hz2 : (![0, 0] : Fin 2 → Nat) = fun _ => 0 := funext fun a => by fin_cases a <;> rfl
/-- The zero offsets of a rank-3 buffer, however spelt. -/
theorem hz3 : (![0, 0, 0] : Fin 3 → Nat) = fun _ => 0 := funext fun a => by fin_cases a <;> rfl

/-! ## The second output's buffer -/

/-- Case A: the second output's buffer ends at the tile's per-target minima, the one covering store's payload over
    the two input blocks read whole. -/
theorem out3_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) :
    out0_A_3 c i arg2 harg2 arg3 harg3 arg4 harg4 arg5 harg5 arg6 harg6 hc0 hc1 x0 x1 = k0_pay2 (k0_pay6 x0 x1) := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero (S := S1x1x1024) hz3]
  simp only [View.readAt_eq_ld, harg2.read_unread, harg3.read_unread, View.ld_unit_zero (S := S1x4096x3) hz3,
    View.ld_unit_zero (S := S1x1024x3) hz3]

/-- Case B: the second output's buffer ends at the tile's per-target minima, the one covering store's payload over
    the two input blocks read whole. -/
theorem out3_B (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) :
    out0_B_3 c i arg2 harg2 arg3 harg3 arg4 harg4 arg5 harg5 arg6 harg6 hc0 hc1 x0 x1 xs0 = k0_pay2 (k0_pay6 x0 x1) := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero (S := S1x1x1024) hz3]
  simp only [View.readAt_eq_ld, harg2.read_unread, harg3.read_unread, View.ld_unit_zero (S := S1x4096x3) hz3,
    View.ld_unit_zero (S := S1x1024x3) hz3]

/-- Case C: the second output's buffer ends at the tile's per-target minima, the one covering store's payload over
    the two input blocks read whole. -/
theorem out3_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) :
    out0_C_3 c i arg2 harg2 arg3 harg3 arg4 harg4 arg5 harg5 arg6 harg6 hc0 hc1 x0 x1 xs0 = k0_pay2 (k0_pay6 x0 x1) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S1x1x1024) hz3]
  simp only [View.readAt_eq_ld, harg2.read_unread, harg3.read_unread, View.ld_unit_zero (S := S1x4096x3) hz3,
    View.ld_unit_zero (S := S1x1024x3) hz3]

/-! ## The scratch -/

/-- Case A: the scratch ends at the minimum of the +∞ block and the tile's row minima: the reset is stored, read back
    whole, and the covering update stored last. -/
theorem sout_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x1024x3 .f32) :
    sout0_A_0 c i arg2 harg2 arg3 harg3 arg4 harg4 arg5 harg5 arg6 harg6 hc0 hc1 x0 x1 = k0_pay1 (k0_pay5 x0 x1) (k0_pay7 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S4096x1) hz2]
  simp only [View.readAt_eq_ld, harg2.read_unread, harg3.read_unread, View.ld_unit_zero (S := S1x4096x3) hz3,
    View.ld_unit_zero (S := S1x1024x3) hz3, View.readCov_unit_zero (S := S4096x1) _ hz2]

/-- Case B: the scratch, entered holding `xs0`, ends at the minimum of `xs0` and the tile's row minima: one covering
    store whose payload reads the scratch whole before it. -/
theorem sout_B (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x1024x3 .f32) (xs0 : Vec F S4096x1 .f32) :
    sout0_B_0 c i arg2 harg2 arg3 harg3 arg4 harg4 arg5 harg5 arg6 harg6 hc0 hc1 x0 x1 xs0 = k0_pay1 (k0_pay5 x0 x1) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero (S := S4096x1) hz2]
  simp only [View.readAt_eq_ld, harg2.read_unread, harg3.read_unread, harg6.read_unread,
    View.ld_unit_zero (S := S1x4096x3) hz3, View.ld_unit_zero (S := S1x1024x3) hz3, View.ld_unit_zero (S := S4096x1) hz2]

/-- Case C: the scratch, entered holding `xs0`, ends at the minimum of `xs0` and the tile's row minima: one covering
    store whose payload reads the scratch whole before it. -/
theorem sout_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) :
    sout0_C_0 c i arg2 harg2 arg3 harg3 arg4 harg4 arg5 harg5 arg6 harg6 hc0 hc1 x0 x1 xs0 = k0_pay1 (k0_pay5 x0 x1) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S4096x1) hz2]
  simp only [View.readAt_eq_ld, harg2.read_unread, harg3.read_unread, harg6.read_unread,
    View.ld_unit_zero (S := S1x4096x3) hz3, View.ld_unit_zero (S := S1x1024x3) hz3, View.ld_unit_zero (S := S4096x1) hz2]

/-! ## The first output's buffer -/

/-- Case C: the first output's buffer ends at the transposed running minimum: its one covering store's payload reads
    back, whole, what the update just stored into the scratch. -/
theorem out2_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x1024x3 .f32) (xs0 : Vec F S4096x1 .f32) :
    out0_C_2 c i arg2 harg2 arg3 harg3 arg4 harg4 arg5 harg5 arg6 harg6 hc0 hc1 x0 x1 xs0 = k0_pay3 (k0_pay1 (k0_pay5 x0 x1) xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S1x1x4096) hz3]
  simp only [View.readAt_eq_ld, harg2.read_unread, harg3.read_unread, harg6.read_unread,
    View.ld_unit_zero (S := S1x4096x3) hz3, View.ld_unit_zero (S := S1x1024x3) hz3, View.ld_unit_zero (S := S4096x1) hz2, View.readCov_unit_zero (S := S4096x1) _ hz2]

end Cert.KernelIdeal.Fr

end
-- ==== Proof.KI.Pay.lean ====
/-
  The kernel body's pure values read at an index, over the extended reals.

  Each value the body stores or carries is a chain of pointwise arithmetic and layout operations over the two blocks it
  loads: a block P of 4096 predicted points and a tile T of 1024 target points. Read at one index, the distance tile is
  d(n,k) = (|p|² + |t|²) − 2·(p·t) with p = P[0,n,·] and t = T[0,k,·]; the two lane reductions are the minimum of that
  tile along a row (over the targets k) and along a column (over the points n), each a fold of `min` from +∞; the
  remaining values are a pointwise minimum with the running result, the constant +∞, and two relabelings of an index
  (a unit axis added; a column read as a row).
-/
import proofs.«406927_j11931419148433_3_alg».proof.Proof.Gen.KernelIdeal.Skeleton
import proofs.«406927_j11931419148433_3_alg».proof.Proof.Spec
import Idealize.ShloMosaic.Lib.ValueIdx
import Idealize.ShloMosaic.Lib.Pipeline.Value
import Idealize.ShloMosaic.Lib.ValueLayout
import Idealize.ShloMosaic.PureOps.Reduce
import Idealize.ShloMosaic.PureOps.Ideal.Laws

noncomputable section

namespace Cert.KernelIdeal.Pay

open Cert.KernelIdeal Cert.KernelIdeal.Gen Cert.Chamfer Idealize.ShloMosaic Idealize.ShloMosaic.ValueIdx

/-! ## Layout operations at an index: the column forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The distance tile -/

section Coords
variable {α : Type}

/-- Coordinate `c` of point `i` of a `[1, a, 3]` block, through the cast to `[a, 3]` and the cut of column `c`. -/
theorem col_apply {a : ℕ} (x : (⟨3, ![1, a, 3]⟩ : Shape).Idx → α) (h1 : (⟨3, ![1, a, 3]⟩ : Shape).ShapeCasts ⟨2, ![a, 3]⟩)
    (o : ℕ) (hs : (⟨2, ![a, 3]⟩ : Shape).Slices ![0, o] ⟨2, ![a, 1]⟩) (c : Fin 3) (hc : c.val = o) (i : Fin a) (u : Fin 1) :
    extractStridedSlice ⟨2, ![a, 1]⟩ ![0, o] (shapeCast ⟨2, ![a, 3]⟩ x h1) hs (ix2 i u) = x (ix3 (0 : Fin 1) i c) :=
  (slice2_axis1_apply o _ hs i u c (by omega)).trans (shapeCast_1ab_ab_apply x h1 i c)

/-- The same coordinate through the cast, the transpose to `[3, a]` and the cut of row `c`. -/
theorem row_apply {a : ℕ} (x : (⟨3, ![1, a, 3]⟩ : Shape).Idx → α) (h1 : (⟨3, ![1, a, 3]⟩ : Shape).ShapeCasts ⟨2, ![a, 3]⟩)
    (ht : (⟨2, ![a, 3]⟩ : Shape).Transposes [1, 0] ⟨2, ![3, a]⟩)
    (o : ℕ) (hs : (⟨2, ![3, a]⟩ : Shape).Slices ![o, 0] ⟨2, ![1, a]⟩) (c : Fin 3) (hc : c.val = o) (u : Fin 1) (i : Fin a) :
    extractStridedSlice ⟨2, ![1, a]⟩ ![o, 0] (transpose ⟨2, ![3, a]⟩ [1, 0] (shapeCast ⟨2, ![a, 3]⟩ x h1) ht) hs (ix2 u i)
      = x (ix3 (0 : Fin 1) i c) :=
  (slice2_axis0_apply o _ hs u i c (by omega)).trans
    ((transpose_ix2_apply _ ht c i).trans (shapeCast_1ab_ab_apply x h1 i c))

end Coords

/-- The distance tile at `(n, k)`: the expanded squared distance of predicted point `n` and target point `k`. -/
theorem pay4_apply (v0 : Vec Ideal S1x4096x3 .f32) (v2 : Vec Ideal S1x1024x3 .f32) (n : Fin 4096) (k : Fin 1024) :
    k0_pay4 (F := Ideal) v0 v2 (ix2 n k)
      = dist (v0 (ix3 0 n 0)) (v0 (ix3 0 n 1)) (v0 (ix3 0 n 2)) (v2 (ix3 0 k 0)) (v2 (ix3 0 k 1)) (v2 (ix3 0 k 2)) := by
  unfold k0_pay4
  simp only [subf_apply, addf_apply, mulf_apply, broadcast_apply, broadcastTo_a1_ab_apply, broadcastTo_1b_ab_apply]
  rw [col_apply v0 _ 0 _ 0 rfl n 0, col_apply v0 _ 1 _ 1 rfl n 0, col_apply v0 _ 2 _ 2 rfl n 0,
    row_apply v2 _ _ 0 _ 0 rfl 0 k, row_apply v2 _ _ 1 _ 1 rfl 0 k, row_apply v2 _ _ 2 _ 2 rfl 0 k]
  rfl

/-! ## The two lane reductions -/

/-- A minimum reduction over one axis, read at an index: the fold of `min` from the accumulator's value over that
    axis's coordinates, the reduced index with the coordinate put back on the axis. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The tile's row minima: for each predicted point, the least distance to a target of the tile, from +∞. -/
theorem pay5_apply (v0 : Vec Ideal S1x4096x3 .f32) (v2 : Vec Ideal S1x1024x3 .f32) (n : Fin 4096) :
    k0_pay5 (F := Ideal) v0 v2 (ix2 n 0) = (Finset.univ : Finset (Fin 1024)).fold min pinf (fun k => k0_pay4 (F := Ideal) v0 v2 (ix2 n k)) := by
  unfold k0_pay5
  refine (shapeCast_a_a1_apply _ _ n 0).trans ?_
  refine (multiReduction_minimumf_single _ _ reduces_S4096x1024_S4096 _ _ (ix1 n)).trans ?_
  refine congrArg (fun f => (Finset.univ : Finset (Fin 1024)).fold min pinf f) (funext fun k => ?_)
  show k0_pay4 (F := Ideal) v0 v2 (reduces_S4096x1024_S4096.lift (ix1 n) k) = k0_pay4 (F := Ideal) v0 v2 (ix2 n k)
  refine congrArg (k0_pay4 (F := Ideal) v0 v2) (funext fun c => ?_)
  match c with
  | ⟨0, _⟩ => exact Fin.ext rfl
  | ⟨1, _⟩ => exact Fin.ext rfl

/-- The tile's column minima: for each target of the tile, the least distance to a predicted point, from +∞. -/
theorem pay6_apply (v0 : Vec Ideal S1x4096x3 .f32) (v2 : Vec Ideal S1x1024x3 .f32) (k : Fin 1024) :
    k0_pay6 (F := Ideal) v0 v2 (ix2 0 k) = (Finset.univ : Finset (Fin 4096)).fold min pinf (fun n => k0_pay4 (F := Ideal) v0 v2 (ix2 n k)) := by
  unfold k0_pay6
  refine (shapeCast_a_1a_apply _ _ 0 k).trans ?_
  refine (multiReduction_minimumf_single _ _ reduces_S4096x1024_S1024 _ _ (ix1 k)).trans ?_
  refine congrArg (fun f => (Finset.univ : Finset (Fin 4096)).fold min pinf f) (funext fun n => ?_)
  show k0_pay4 (F := Ideal) v0 v2 (reduces_S4096x1024_S1024.lift (ix1 k) n) = k0_pay4 (F := Ideal) v0 v2 (ix2 n k)
  refine congrArg (k0_pay4 (F := Ideal) v0 v2) (funext fun c => ?_)
  match c with
  | ⟨0, _⟩ => exact Fin.ext rfl
  | ⟨1, _⟩ => exact Fin.ext rfl

/-! ## The small values -/

/-- The running minimum's update: the pointwise minimum of the stored column and the tile's row minima. -/
theorem pay1_apply (v39 : FVec Ideal S4096x1 .f32) (v45 : Vec Ideal S4096x1 .f32) (n : Fin 4096) :
    k0_pay1 (F := Ideal) v39 v45 (ix2 n 0) = min (v45 (ix2 n 0)) (v39 (ix2 n 0)) := by
  unfold k0_pay1
  rw [shapeCast_self]
  rfl

/-- The running minimum's first value: +∞ everywhere. -/
theorem pay7_apply (n : Fin 4096) : (k0_pay7 (F := Ideal)) (ix2 n 0) = pinf := by
  unfold k0_pay7
  rw [shapeCast_self]
  rfl

/-- The column minima stored as a `[1, 1, 1024]` block: a unit axis added. -/
theorem pay2_apply (v41 : FVec Ideal S1x1024 .f32) (k : Fin 1024) : k0_pay2 (F := Ideal) v41 (ix3 0 0 k) = v41 (ix2 0 k) := by
  unfold k0_pay2
  exact shapeCast_ab_1ab_apply v41 _ 0 0 k

/-- The finished row minima stored as a `[1, 1, 4096]` block: the column read as a row, then a unit axis added. -/
theorem pay3_apply (v56 : Vec Ideal S4096x1 .f32) (n : Fin 4096) : k0_pay3 (F := Ideal) v56 (ix3 0 0 n) = v56 (ix2 n 0) := by
  unfold k0_pay3
  refine (shapeCast_ab_1ab_apply _ _ 0 0 n).trans ?_
  exact transpose_ix2_apply v56 _ 0 n

end Cert.KernelIdeal.Pay

end
-- ==== Proof.SpecLaws.lean ====
/-
  Laws of the fold of `min` from +∞ that the specification is built from.

  A fold of `min` from +∞ over a finite index set is the infimum of the values: y lies below the fold exactly when
  y lies below every value (+∞ bounds everything). Hence the fold depends only on the values, and, since every
  k < 4096 is 1024·j + k' for exactly one tile j < 4 and k' < 1024, the minimum over 4096 targets is the minimum of
  the four tile minima. No value needs to be finite.
-/
import proofs.«406927_j11931419148433_3_alg».proof.Proof.Spec
import Mathlib.Data.Finset.Fold
import Mathlib.Order.Basic

noncomputable section

namespace Cert.Chamfer

open Idealize.ShloMosaic

/-- The literal the minima start from denotes +∞. -/
theorem pinf_eq_top : pinf = (⊤ : EReal) := by
  simp [pinf, Ideal.ofBits, Ideal.ieee]

/-- y is below a fold of `min` from +∞ exactly when it is below every value. -/
theorem le_fold_min_pinf_iff {n : Nat} (f : Fin n → EReal) (y : EReal) :
    y ≤ (Finset.univ : Finset (Fin n)).fold min pinf f ↔ ∀ i, y ≤ f i := by
  rw [Finset.le_fold_min]
  constructor
  · intro h i
    exact h.2 i (Finset.mem_univ i)
  · intro h
    exact ⟨pinf_eq_top ▸ le_top, fun i _ => h i⟩

/-- Every target lies in exactly one tile: k = 1024·(k / 1024) + k % 1024. -/
theorem exists_tileIdx (k : Fin 4096) : ∃ (j : Fin 4) (k' : Fin 1024), k = tileIdx j k' := by
  refine ⟨⟨k.val / 1024, by omega⟩, ⟨k.val % 1024, by omega⟩, ?_⟩
  apply Fin.ext
  show k.val = k.val / 1024 * 1024 + k.val % 1024
  omega

/-- y is below the minimum over all targets exactly when it is below every tile minimum. -/
theorem le_fold_min_iff_tiles (f : Fin 4096 → EReal) (y : EReal) :
    y ≤ (Finset.univ : Finset (Fin 4096)).fold min pinf f ↔ ∀ j, y ≤ tileMin f j := by
  simp only [tileMin, le_fold_min_pinf_iff]
  constructor
  · intro h j k'
    exact h (tileIdx j k')
  · intro h k
    obtain ⟨j, k', rfl⟩ := exists_tileIdx k
    exact h j k'

/-- The minimum over 4096 targets is the minimum of the four tile minima. -/
theorem fold_min_tiles (f : Fin 4096 → EReal) :
    (Finset.univ : Finset (Fin 4096)).fold min pinf f
      = min (min (min (min pinf (tileMin f 0)) (tileMin f 1)) (tileMin f 2)) (tileMin f 3) := by
  refine eq_of_forall_le_iff fun y => ?_
  rw [le_fold_min_iff_tiles]
  simp only [le_min_iff]
  constructor
  · intro h
    exact ⟨⟨⟨⟨pinf_eq_top ▸ le_top, h 0⟩, h 1⟩, h 2⟩, h 3⟩
  · rintro ⟨⟨⟨⟨-, h0⟩, h1⟩, h2⟩, h3⟩ j
    have hj : j = 0 ∨ j = 1 ∨ j = 2 ∨ j = 3 := by omega
    rcases hj with rfl | rfl | rfl | rfl
    · exact h0
    · exact h1
    · exact h2
    · exact h3

/-- A fold of `min` from +∞ depends only on the values. -/
theorem fold_min_congr {n : Nat} (f g : Fin n → EReal) (h : ∀ i, f i = g i) :
    (Finset.univ : Finset (Fin n)).fold min pinf f = (Finset.univ : Finset (Fin n)).fold min pinf g := by
  have hfg : f = g := funext h
  rw [hfg]

end Cert.Chamfer

end
-- ==== Proof.KI.Reshape.lean ====
/-
  The host's reshape of a region result, read at an index.

  Each of the region's two results is an array of shape [8, 1, 4096]; the host program reshapes it to [8, 4096], which
  takes the elements in row-major order at the new shape. The unit middle axis contributes nothing to the row-major
  position, (b·1 + 0)·4096 + n = b·4096 + n, so the reshaped array at (b, n) is the result at (b, 0, n).
-/
import proofs.«406927_j11931419148433_3_alg».proof.Proof.Gen.KernelIdeal
import Idealize.ShloMosaic.Lib.ValueIdx
import Idealize.ShloMosaic.Lib.Pipeline.Value

noncomputable section

namespace Cert.KernelIdeal.Val

open Cert.KernelIdeal Cert.KernelIdeal.Gen Idealize.ShloMosaic Idealize.ShloMosaic.ValueIdx

variable {α : Type}

/-- The `[8, 1, 4096]` array cast to `[8, 4096]` reads, at `(b, n)`, the operand at `(b, 0, n)`. -/
theorem reshape_apply (G : S8x1x4096.Idx → α) (hc : S8x1x4096.ShapeCasts S8x4096) (b : Fin 8) (n : Fin 4096) :
    shapeCast S8x4096 G hc (ix2 b n) = G (ix3 b 0 n) :=
  shapeCast_apply G hc _ _ (by
    rw [Shape.rowMajor_val_three, Shape.rowMajor_val_two]
    show (b.val * 1 + 0) * 4096 + n.val = b.val * 4096 + n.val
    rw [Nat.mul_one, Nat.add_zero])

/-- So the cast array IS any `[8, 4096]` array that reads the operand at `(b, 0, n)` at each `(b, n)`. -/
theorem reshape_eq (G : S8x1x4096.Idx → α) (hc : S8x1x4096.ShapeCasts S8x4096) (H : S8x4096.Idx → α)
    (h : ∀ (b : Fin 8) (n : Fin 4096), H (ix2 b n) = G (ix3 b 0 n)) : shapeCast S8x4096 G hc = H := by
  funext j
  rw [eq_ix2 j]
  exact (reshape_apply G hc (j 0) (j 1)).trans (h (j 0) (j 1)).symm

end Cert.KernelIdeal.Val

end
-- ==== Proof.TailK.lean ====
/-
  The common tail of the two programs.

  After the two arrays of minima are known, both programs apply the same chain of 148 host operations to them and
  to the remaining arguments, ending in one scalar.  `TailK` is that chain as one pure function; `kernel_tail` says that
  the kernel program's host operations after its region compute exactly `TailK` of the region's two results (each
  reshaped from [8, 1, 4096] to [8, 4096]) and of the arguments 2 … 10.  Nothing here opens the chain: the statement
  is an identity of terms, at every float family `F`.
-/
import proofs.«406927_j11931419148433_3_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem

variable {F : FTy → Type} [FloatOps F]

/-- A tensor of shape `s` and element type `e` over the float family `F`: a buffer's contents. -/
abbrev Tn (F : FTy → Type) (s : Shape) (e : EltTy) : Type := (⟨s, e⟩ : BufTy).Contents (Elt F)

/-- The common tail of both programs, as one pure function of the two arrays of minima `A`, `B` : [8, 4096] and of the
    arguments `x2 … x10`.  With  m(X) = mean X,  e(X) = exp (−X / τ)  elementwise (τ the literal 0x3951B717),
    the chain is:
    * over all 8·4096 entries: the distance term  m(A) + m(B)  and the overlap term
        1 − 2·m(e A)·m(e B) / (m(e A) + m(e B) + ε),  combined as  L = (m A + m B) + 0.1·(1 − …);
    * the same two terms per batch row (means over the 4096 entries of a row), weighted by `x3` and averaged over
      the 8 rows:  Lw;
    * a three-layer perceptron on `x2` (weights `x4, x6, x8`, biases `x5, x7, x9`, `max · 0` between layers), the
      row-wise log-softmax of its 6 outputs, the entry picked per row by the label `x10` (a negative label wrapped
      by 6; a label outside [0, 5] gives NaN), and the negated mean of the picked entries:  C;
    * the result  (1·L + 0.1·C) + Lw.
    Every line is one operation of the printed programs, in their order. -/
def TailK (A B : (⟨S8x4096, .f32⟩ : BufTy).Contents (Elt F)) (x2 : (⟨S8x512, .f32⟩ : BufTy).Contents (Elt F))
    (x3 : (⟨S8, .f32⟩ : BufTy).Contents (Elt F)) (x4 : (⟨S512x256, .f32⟩ : BufTy).Contents (Elt F))
    (x5 : (⟨S256, .f32⟩ : BufTy).Contents (Elt F)) (x6 : (⟨S256x128, .f32⟩ : BufTy).Contents (Elt F))
    (x7 : (⟨S128, .f32⟩ : BufTy).Contents (Elt F)) (x8 : (⟨S128x6, .f32⟩ : BufTy).Contents (Elt F))
    (x9 : (⟨S6, .f32⟩ : BufTy).Contents (Elt F)) (x10 : (⟨S8, .i32⟩ : BufTy).Contents (Elt F)) :
    (⟨S_, .f32⟩ : BufTy).Contents (Elt F) :=
  -- e(A) and e(B)
  have v3 : Tn F S8x4096 .f32 := Host.negf A
  have cst : Tn F S_ .f32 := constant S_ .f32 0x3951B717#32
  have v4 : Tn F S8x4096 .f32 := broadcastInDim S8x4096 ![] bcast_S_S8x4096 cst
  have v5 : Tn F S8x4096 .f32 := Host.divf v3 v4
  have v6 : Tn F S8x4096 .f32 := Host.exp v5
  have v7 : Tn F S8x4096 .f32 := Host.negf B
  have cst_0 : Tn F S_ .f32 := constant S_ .f32 0x3951B717#32
  have v8 : Tn F S8x4096 .f32 := broadcastInDim S8x4096 ![] bcast_S_S8x4096 cst_0
  have v9 : Tn F S8x4096 .f32 := Host.divf v7 v8
  have v10 : Tn F S8x4096 .f32 := Host.exp v9
  -- the four means over all entries (sum, then division by 32768)
  have cst_1 : Tn F S_ .f32 := constant S_ .f32 0x00000000#32
  have v11 : Tn F S_ .f32 := Host.reduceAdd A cst_1 reducesTo_S8x4096_S_d0_1 h_S_
  have cst_2 : Tn F S_ .f32 := constant S_ .f32 0x47000000#32
  have v12 : Tn F S_ .f32 := Host.divf v11 cst_2
  have cst_3 : Tn F S_ .f32 := constant S_ .f32 0x00000000#32
  have v13 : Tn F S_ .f32 := Host.reduceAdd B cst_3 reducesTo_S8x4096_S_d0_1 h_S_
  have cst_4 : Tn F S_ .f32 := constant S_ .f32 0x47000000#32
  have v14 : Tn F S_ .f32 := Host.divf v13 cst_4
  have v15 : Tn F S_ .f32 := addf v12 v14
  have cst_5 : Tn F S_ .f32 := constant S_ .f32 0x00000000#32
  have v16 : Tn F S_ .f32 := Host.reduceAdd v6 cst_5 reducesTo_S8x4096_S_d0_1 h_S_
  have cst_6 : Tn F S_ .f32 := constant S_ .f32 0x47000000#32
  have v17 : Tn F S_ .f32 := Host.divf v16 cst_6
  have cst_7 : Tn F S_ .f32 := constant S_ .f32 0x00000000#32
  have v18 : Tn F S_ .f32 := Host.reduceAdd v10 cst_7 reducesTo_S8x4096_S_d0_1 h_S_
  have cst_8 : Tn F S_ .f32 := constant S_ .f32 0x47000000#32
  have v19 : Tn F S_ .f32 := Host.divf v18 cst_8
  -- the overlap term and L
  have cst_9 : Tn F S_ .f32 := constant S_ .f32 0x40000000#32
  have v20 : Tn F S_ .f32 := mulf cst_9 v17
  have v21 : Tn F S_ .f32 := mulf v20 v19
  have v22 : Tn F S_ .f32 := addf v17 v19
  have cst_10 : Tn F S_ .f32 := constant S_ .f32 0x322BCC77#32
  have v23 : Tn F S_ .f32 := addf v22 cst_10
  have v24 : Tn F S_ .f32 := Host.divf v21 v23
  have cst_11 : Tn F S_ .f32 := constant S_ .f32 0x3F800000#32
  have v25 : Tn F S_ .f32 := subf cst_11 v24
  have cst_12 : Tn F S_ .f32 := constant S_ .f32 0x3DCCCCCD#32
  have v26 : Tn F S_ .f32 := mulf cst_12 v25
  have v27 : Tn F S_ .f32 := addf v15 v26
  -- the four means per batch row (sum over a row, then division by 4096)
  have cst_13 : Tn F S_ .f32 := constant S_ .f32 0x00000000#32
  have v28 : Tn F S8 .f32 := Host.reduceAdd A cst_13 reducesTo_S8x4096_S8_d1 h_S_
  have cst_14 : Tn F S_ .f32 := constant S_ .f32 0x45800000#32
  have v29 : Tn F S8 .f32 := broadcastInDim S8 ![] bcast_S_S8 cst_14
  have v30 : Tn F S8 .f32 := Host.divf v28 v29
  have cst_15 : Tn F S_ .f32 := constant S_ .f32 0x00000000#32
  have v31 : Tn F S8 .f32 := Host.reduceAdd B cst_15 reducesTo_S8x4096_S8_d1 h_S_
  have cst_16 : Tn F S_ .f32 := constant S_ .f32 0x45800000#32
  have v32 : Tn F S8 .f32 := broadcastInDim S8 ![] bcast_S_S8 cst_16
  have v33 : Tn F S8 .f32 := Host.divf v31 v32
  have v34 : Tn F S8 .f32 := addf v30 v33
  have cst_17 : Tn F S_ .f32 := constant S_ .f32 0x00000000#32
  have v35 : Tn F S8 .f32 := Host.reduceAdd v6 cst_17 reducesTo_S8x4096_S8_d1 h_S_
  have cst_18 : Tn F S_ .f32 := constant S_ .f32 0x45800000#32
  have v36 : Tn F S8 .f32 := broadcastInDim S8 ![] bcast_S_S8 cst_18
  have v37 : Tn F S8 .f32 := Host.divf v35 v36
  have cst_19 : Tn F S_ .f32 := constant S_ .f32 0x00000000#32
  have v38 : Tn F S8 .f32 := Host.reduceAdd v10 cst_19 reducesTo_S8x4096_S8_d1 h_S_
  have cst_20 : Tn F S_ .f32 := constant S_ .f32 0x45800000#32
  have v39 : Tn F S8 .f32 := broadcastInDim S8 ![] bcast_S_S8 cst_20
  have v40 : Tn F S8 .f32 := Host.divf v38 v39
  -- the overlap term per row, the per-row loss, its weighted mean Lw
  have cst_21 : Tn F S_ .f32 := constant S_ .f32 0x40000000#32
  have v41 : Tn F S8 .f32 := broadcastInDim S8 ![] bcast_S_S8 cst_21
  have v42 : Tn F S8 .f32 := mulf v41 v37
  have v43 : Tn F S8 .f32 := mulf v42 v40
  have v44 : Tn F S8 .f32 := addf v37 v40
  have cst_22 : Tn F S_ .f32 := constant S_ .f32 0x322BCC77#32
  have v45 : Tn F S8 .f32 := broadcastInDim S8 ![] bcast_S_S8 cst_22
  have v46 : Tn F S8 .f32 := addf v44 v45
  have v47 : Tn F S8 .f32 := Host.divf v43 v46
  have cst_23 : Tn F S_ .f32 := constant S_ .f32 0x3F800000#32
  have v48 : Tn F S8 .f32 := broadcastInDim S8 ![] bcast_S_S8 cst_23
  have v49 : Tn F S8 .f32 := subf v48 v47
  have cst_24 : Tn F S_ .f32 := constant S_ .f32 0x3DCCCCCD#32
  have v50 : Tn F S8 .f32 := broadcastInDim S8 ![] bcast_S_S8 cst_24
  have v51 : Tn F S8 .f32 := mulf v50 v49
  have v52 : Tn F S8 .f32 := addf v34 v51
  have v53 : Tn F S8 .f32 := mulf x3 v52
  have cst_25 : Tn F S_ .f32 := constant S_ .f32 0x00000000#32
  have v54 : Tn F S_ .f32 := Host.reduceAdd v53 cst_25 reducesTo_S8_S_d0 h_S_
  have cst_26 : Tn F S_ .f32 := constant S_ .f32 0x41000000#32
  have v55 : Tn F S_ .f32 := Host.divf v54 cst_26
  -- first layer: x2 · x4 + x5, then max with 0
  have v56 : Tn F S8x256 .f32 := Host.dotGeneral dot_S8x512_S512x256_S8x256_1_0_0_1_n_n none x2 x4
  have v57 : Tn F S1x256 .f32 := broadcastInDim S1x256 ![1] bcast_S256_S1x256_1 x5
  have v58 : Tn F S8x256 .f32 := broadcastInDim S8x256 ![0, 1] bcast_S1x256_S8x256_0_1 v57
  have v59 : Tn F S8x256 .f32 := addf v56 v58
  have c0_cst : Tn F S_ .f32 := constant S_ .f32 0x00000000#32
  have c0_v0 : Tn F S8x256 .f32 := broadcastInDim S8x256 ![] bcast_S_S8x256 c0_cst
  have v60 : Tn F S8x256 .f32 := maximumf v59 c0_v0
  -- second layer
  have v61 : Tn F S8x128 .f32 := Host.dotGeneral dot_S8x256_S256x128_S8x128_1_0_0_1_n_n none v60 x6
  have v62 : Tn F S1x128 .f32 := broadcastInDim S1x128 ![1] bcast_S128_S1x128_1 x7
  have v63 : Tn F S8x128 .f32 := broadcastInDim S8x128 ![0, 1] bcast_S1x128_S8x128_0_1 v62
  have v64 : Tn F S8x128 .f32 := addf v61 v63
  have c1_cst : Tn F S_ .f32 := constant S_ .f32 0x00000000#32
  have c1_v0 : Tn F S8x128 .f32 := broadcastInDim S8x128 ![] bcast_S_S8x128 c1_cst
  have v65 : Tn F S8x128 .f32 := maximumf v64 c1_v0
  -- third layer
  have v66 : Tn F S8x6 .f32 := Host.dotGeneral dot_S8x128_S128x6_S8x6_1_0_0_1_n_n none v65 x8
  have v67 : Tn F S1x6 .f32 := broadcastInDim S1x6 ![1] bcast_S6_S1x6_1 x9
  have v68 : Tn F S8x6 .f32 := broadcastInDim S8x6 ![0, 1] bcast_S1x6_S8x6_0_1 v67
  have v69 : Tn F S8x6 .f32 := addf v66 v68
  -- row-wise log-softmax:  z − max z − log Σ exp (z − max z)
  have c2_cst : Tn F S_ .f32 := constant S_ .f32 0xFF800000#32
  have c2_v0 : Tn F S8 .f32 := Host.reduce FloatOps.maximumf v69 c2_cst reducesTo_S8x6_S8_d1 h_S_
  have c2_cst_0 : Tn F S_ .f32 := constant S_ .f32 0xFF800000#32
  have c2_v1 : Tn F S8 .f32 := broadcastInDim S8 ![] bcast_S_S8 c2_cst_0
  have c2_v2 : Tn F S8 .f32 := maximumf c2_v1 c2_v0
  have c2_v3 : Tn F S8x1 .f32 := broadcastInDim S8x1 ![0] bcast_S8_S8x1_0 c2_v2
  have c2_v4 : Tn F S8x6 .f32 := broadcastInDim S8x6 ![0, 1] bcast_S8x1_S8x6_0_1 c2_v3
  have c2_v5 : Tn F S8x6 .f32 := subf v69 c2_v4
  have c2_v6 : Tn F S8x6 .f32 := Host.exp c2_v5
  have c2_cst_1 : Tn F S_ .f32 := constant S_ .f32 0x00000000#32
  have c2_v7 : Tn F S8 .f32 := Host.reduceAdd c2_v6 c2_cst_1 reducesTo_S8x6_S8_d1 h_S_
  have c2_v8 : Tn F S8x1 .f32 := broadcastInDim S8x1 ![0] bcast_S8_S8x1_0 c2_v7
  have c2_v9 : Tn F S8x1 .f32 := Host.log c2_v8
  have c2_v10 : Tn F S8x6 .f32 := broadcastInDim S8x6 ![0, 1] bcast_S8x1_S8x6_0_1 c2_v9
  have v70 : Tn F S8x6 .f32 := subf c2_v5 c2_v10
  -- the entry at the label: a negative label wrapped by 6, gathered, NaN where the wrapped label is outside [0, 5]
  have v71 : Tn F S8x1 .i32 := broadcastInDim S8x1 ![0] bcast_S8_S8x1_0 x10
  have c3_c : Tn F S_ .i32 := constantI S_ 32 0#32
  have c3_v0 : Tn F S8x1 .i32 := broadcastInDim S8x1 ![] bcast_S_S8x1 c3_c
  have c3_v1 : Tn F S8x1 .i1 := cmpi .slt v71 c3_v0
  have c3_c_0 : Tn F S_ .i32 := constantI S_ 32 6#32
  have c3_v2 : Tn F S8x1 .i32 := broadcastInDim S8x1 ![] bcast_S_S8x1 c3_c_0
  have c3_v3 : Tn F S8x1 .i32 := addi v71 c3_v2
  have c3_v4 : Tn F S8x1 .i32 := select c3_v1 c3_v3 v71
  have c3_v5 : Tn F S8x1x1 .i32 := shapeCast S8x1x1 c3_v4 shapeCasts_S8x1_S8x1x1
  have c3_c_1 : Tn F S1 .i32 := constantI S1 32 5#32
  have c3_c_2 : Tn F S_ .i32 := constantI S_ 32 0#32
  have c3_v6 : Tn F S8x1x1 .i32 := broadcastInDim S8x1x1 ![] bcast_S_S8x1x1 c3_c_2
  have c3_v7 : Tn F S8x1x1 .i1 := cmpi .sge c3_v5 c3_v6
  have c3_v8 : Tn F S1x1x1 .i32 := broadcastInDim S1x1x1 ![2] bcast_S1_S1x1x1_2 c3_c_1
  have c3_v9 : Tn F S8x1x1 .i32 := broadcastInDim S8x1x1 ![0, 1, 2] bcast_S1x1x1_S8x1x1_0_1_2 c3_v8
  have c3_v10 : Tn F S8x1x1 .i1 := cmpi .sle c3_v5 c3_v9
  have c3_v11 : Tn F S8x1x1 .i1 := andi c3_v7 c3_v10
  have c3_c_3 : Tn F S_ .i1 := constantI S_ 1 1#1
  have c3_v12 : Tn F S8x1 .i1 := Host.reduce IntOp.andi c3_v11 c3_c_3 reducesTo_S8x1x1_S8x1_d2 h_S_
  have c3_v13 : Tn F S8x1 .f32 := Host.gather gather_S8x6_S8x1x1_S8x1_n_1_0_0_1_2_11 v70 c3_v5
  have c3_cst : Tn F S_ .f32 := constant S_ .f32 0x7FC00000#32
  have c3_v14 : Tn F S8x1 .f32 := broadcastInDim S8x1 ![] bcast_S_S8x1 c3_cst
  have v72 : Tn F S8x1 .f32 := select c3_v12 c3_v13 c3_v14
  -- C: the negated mean of the picked entries; the result (1·L + 0.1·C) + Lw
  have cst_27 : Tn F S_ .f32 := constant S_ .f32 0x00000000#32
  have v73 : Tn F S_ .f32 := Host.reduceAdd v72 cst_27 reducesTo_S8x1_S_d0_1 h_S_
  have cst_28 : Tn F S_ .f32 := constant S_ .f32 0x41000000#32
  have v74 : Tn F S_ .f32 := Host.divf v73 cst_28
  have v75 : Tn F S_ .f32 := Host.negf v74
  have cst_29 : Tn F S_ .f32 := constant S_ .f32 0x3F800000#32
  have v76 : Tn F S_ .f32 := mulf cst_29 v27
  have cst_30 : Tn F S_ .f32 := constant S_ .f32 0x3DCCCCCD#32
  have v77 : Tn F S_ .f32 := mulf cst_30 v75
  have v78 : Tn F S_ .f32 := addf v76 v77
  have v79 : Tn F S_ .f32 := addf v78 v55
  v79

set_option maxRecDepth 65536 in
set_option maxHeartbeats 4000000 in
/-- The kernel program's host operations after its region, run from any contents `W`, leave in the result buffer
    `TailK` of the region's two results reshaped to [8, 4096] and of the arguments 2 … 10 as `W` holds them. -/
theorem kernel_tail (W : Valuation τ sig (Elt F)) :
    StableHlo.after (List.flatten [hostOps1, hostOps1_1, hostOps1_2, hostOps1_3, hostOps1_4, hostOps1_5, hostOps1_6,
        hostOps1_7, hostOps1_8]) W (Proc.devRef .tc main_v79)
      = TailK (shapeCast S8x4096 (W (Proc.devRef .tc main_v0_0)) shapeCasts_S8x1x4096_S8x4096)
          (shapeCast S8x4096 (W (Proc.devRef .tc main_v0_1)) shapeCasts_S8x1x4096_S8x4096)
          (W (Proc.devRef .tc main_arg2)) (W (Proc.devRef .tc main_arg3)) (W (Proc.devRef .tc main_arg4))
          (W (Proc.devRef .tc main_arg5)) (W (Proc.devRef .tc main_arg6)) (W (Proc.devRef .tc main_arg7))
          (W (Proc.devRef .tc main_arg8)) (W (Proc.devRef .tc main_arg9)) (W (Proc.devRef .tc main_arg10)) := by
  simp only [List.flatten_cons, List.flatten_nil, List.append_nil, List.cons_append, List.nil_append]
  after_results_simp
  rfl

end Cert.KernelIdeal.Tail

end
-- ==== Proof.KI.Value.lean ====
/-
  What the region leaves in its two result arrays, at the extended reals.

  At grid point t (batch element b = t div 4, M-tile j = t mod 4) the body forms the tile of squared distances
  d(n, j·1024 + k) between P[b] and the tile's targets, stores the tile's column minima — minB[b, j·1024 + k], final,
  since every predicted point is in the tile — and lowers the running row minimum in the scratch by the tile's row
  minima. By induction on the point the scratch after tile j holds min(… min(min(+∞, tile₀), tile₁) …, tile_j) of
  the row's tile minima; after the last tile that is the minimum over all 4096 targets, minA[b, n], which the body
  writes into the first output. Each output block is a block of one whole-array function, and the written-back
  blocks cover the arrays. The program's one result is then the shared host tail applied to minA and minB (the two
  [8,1,4096] results reshaped to [8,4096]) and to the other arguments, and the eleven arguments end as launched.
-/
import proofs.«406927_j11931419148433_3_alg».proof.Proof.KI.Blocks
import proofs.«406927_j11931419148433_3_alg».proof.Proof.KI.Pieces
import proofs.«406927_j11931419148433_3_alg».proof.Proof.KI.Pay
import proofs.«406927_j11931419148433_3_alg».proof.Proof.SpecLaws
import proofs.«406927_j11931419148433_3_alg».proof.Proof.KI.Reshape
import proofs.«406927_j11931419148433_3_alg».proof.Proof.TailK

set_option maxRecDepth 16384

noncomputable section

namespace Cert.KernelIdeal.Val

open Cert.KernelIdeal Cert.KernelIdeal.Gen Cert.KernelIdeal.Fr Cert.KernelIdeal.Pay Cert.KernelIdeal.Tail Cert.Chamfer
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The two point clouds as the region finds them. -/
abbrev P (c : Dev nD) : Cloud := V m c main_arg0
abbrev T (c : Dev nD) : Cloud := V m c main_arg1
/-- The two input blocks at a point, at their literal types. -/
abbrev xblk (c : Dev nD) (t : Fin cfg0.N) : Vec Ideal S1x4096x3 .f32 := iblk m c 0 t
abbrev yblk (c : Dev nD) (t : Fin cfg0.N) : Vec Ideal S1x1024x3 .f32 := iblk m c 1 t

/-- The distance the body forms from the two blocks at point t is d(n, j·1024 + k) of batch element b. -/
theorem dist_blk (c : Dev nD) (t : Fin cfg0.N) (n : Fin 4096) (k : Fin 1024) :
    dist (xblk m c t (ix3 0 n 0)) (xblk m c t (ix3 0 n 1)) (xblk m c t (ix3 0 n 2))
         (yblk m c t (ix3 0 k 0)) (yblk m c t (ix3 0 k 1)) (yblk m c t (ix3 0 k 2))
      = D (P m c) (T m c) (bOf t) n (tileIdx (jOf t) k) := by
  unfold D xblk yblk P T
  rw [iblk0_apply, iblk0_apply, iblk0_apply, iblk1_apply, iblk1_apply, iblk1_apply]

/-- The tile's row minimum at predicted point n. -/
theorem row_blk (c : Dev nD) (t : Fin cfg0.N) (n : Fin 4096) :
    k0_pay5 (F := Ideal) (xblk m c t) (yblk m c t) (ix2 n 0) = tileMin (fun k => D (P m c) (T m c) (bOf t) n k) (jOf t) := by
  refine (pay5_apply (xblk m c t) (yblk m c t) n).trans ?_
  unfold tileMin
  exact fold_min_congr _ _ (fun k => (pay4_apply (xblk m c t) (yblk m c t) n k).trans (dist_blk m c t n k))

/-- The tile's column minimum at its target k is final: minB[b, j·1024 + k]. -/
theorem col_blk (c : Dev nD) (t : Fin cfg0.N) (k : Fin 1024) :
    k0_pay2 (F := Ideal) (k0_pay6 (xblk m c t) (yblk m c t)) (ix3 0 0 k) = minB (P m c) (T m c) (bOf t) (tileIdx (jOf t) k) := by
  refine (pay2_apply _ k).trans ((pay6_apply (xblk m c t) (yblk m c t) k).trans ?_)
  unfold minB
  exact fold_min_congr _ _ (fun n => (pay4_apply (xblk m c t) (yblk m c t) n k).trans (dist_blk m c t n k))

/-! ## After the body at each point -/

/-- The second output's buffer after point t: the tile's column minima. -/
theorem out3_at (c : Dev nD) (t : Fin cfg0.N) (k : Fin 1024) :
    (outsAt0 m c t.val t.isLt).2.1 (ix3 0 0 k) = minB (P m c) (T m c) (bOf t) (tileIdx (jOf t) k) := by
  by_cases h0 : t.val % 4 = 0
  · have h1 : ¬t.val % 4 = 3 := by omega
    rw [outsAt0_A m c t h0 h1]; dsimp only
    exact (congrFun (out3_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) (ix3 0 0 k)).trans (col_blk m c t k)
  · by_cases h1 : t.val % 4 = 3
    · rw [outsAt0_C m c t h0 h1]; dsimp only
      exact (congrFun (out3_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) (ix3 0 0 k)).trans (col_blk m c t k)
    · rw [outsAt0_B m c t h0 h1]; dsimp only
      exact (congrFun (out3_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) (ix3 0 0 k)).trans (col_blk m c t k)

/-- The scratch after the first tile of a batch element: +∞ lowered by the tile's row minimum. -/
theorem scr_first (c : Dev nD) (t : Fin cfg0.N) (h0 : t.val % 4 = 0) (p : Fin 4096) :
    (outsAt0 m c t.val t.isLt).2.2 (ix2 p 0) = min pinf (tileMin (fun k => D (P m c) (T m c) (bOf t) p k) (jOf t)) := by
  have h1 : ¬t.val % 4 = 3 := by omega
  rw [outsAt0_A m c t h0 h1]; dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) (ix2 p 0)).trans ?_
  refine (pay1_apply _ _ p).trans ?_
  rw [pay7_apply p]
  exact congrArg (min pinf) (row_blk m c t p)

/-- The scratch after a later tile: what the point before left, lowered by the tile's row minimum. -/
theorem scr_later (c : Dev nD) (t : Fin cfg0.N) (h0 : ¬t.val % 4 = 0) (p : Fin 4096) :
    (outsAt0 m c t.val t.isLt).2.2 (ix2 p 0)
      = min ((outsAt0 m c (t.val - 1) (Nat.lt_of_le_of_lt (Nat.sub_le _ _) t.isLt)).2.2 (ix2 p 0)) (tileMin (fun k => D (P m c) (T m c) (bOf t) p k) (jOf t)) := by
  by_cases h1 : t.val % 4 = 3
  · rw [outsAt0_C m c t h0 h1]; dsimp only
    refine (congrFun (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) (ix2 p 0)).trans ?_
    refine (pay1_apply _ _ p).trans ?_
    exact congrArg (min _) (row_blk m c t p)
  · rw [outsAt0_B m c t h0 h1]; dsimp only
    refine (congrFun (sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) (ix2 p 0)).trans ?_
    refine (pay1_apply _ _ p).trans ?_
    exact congrArg (min _) (row_blk m c t p)

/-- The running minimum over the first r + 1 tiles. -/
def acc (f : Fin 4096 → EReal) : ℕ → EReal
  | 0 => min pinf (tileMin f 0)
  | r + 1 => min (acc f r) (tileMin f ⟨(r + 1) % 4, Nat.mod_lt _ (by decide)⟩)

/-- The scratch after point n holds the running minimum over the tiles of its batch element seen so far. -/
theorem scr_at (c : Dev nD) : ∀ (n : ℕ) (h : n < cfg0.N) (p : Fin 4096),
    (outsAt0 m c n h).2.2 (ix2 p 0) = acc (fun k => D (P m c) (T m c) (bOf ⟨n, h⟩) p k) (n % 4)
  | 0, h, p => by
    refine (scr_first m c ⟨0, h⟩ rfl p).trans ?_
    show min pinf (tileMin _ (jOf ⟨0, h⟩)) = min pinf (tileMin _ 0)
    rfl
  | n + 1, h, p => by
    by_cases h0 : (n + 1) % 4 = 0
    · refine (scr_first m c ⟨n + 1, h⟩ h0 p).trans ?_
      rw [h0]
      show min pinf (tileMin _ (jOf ⟨n + 1, h⟩)) = min pinf (tileMin _ 0)
      have hj : jOf ⟨n + 1, h⟩ = 0 := Fin.ext h0
      rw [hj]
    · refine (scr_later m c ⟨n + 1, h⟩ h0 p).trans ?_
      have hprev := scr_at c n (Nat.lt_of_succ_lt h) p
      have hb : bOf ⟨n, Nat.lt_of_succ_lt h⟩ = bOf ⟨n + 1, h⟩ := Fin.ext (by show n / 4 = (n + 1) / 4; omega)
      have hr : (n + 1) % 4 = n % 4 + 1 := by omega
      rw [hb] at hprev
      show min ((outsAt0 m c (n + 1 - 1) _).2.2 (ix2 p 0)) _ = _
      simp only [Nat.add_sub_cancel]
      rw [hprev, hr]
      show _ = min (acc _ (n % 4)) (tileMin _ ⟨(n % 4 + 1) % 4, _⟩)
      have hj : jOf ⟨n + 1, h⟩ = ⟨(n % 4 + 1) % 4, Nat.mod_lt _ (by decide)⟩ := Fin.ext (by show (n + 1) % 4 = (n % 4 + 1) % 4; omega)
      rw [hj]

/-- After the last tile the running minimum is the minimum over all targets. -/
theorem acc_three (f : Fin 4096 → EReal) : acc f 3 = (Finset.univ : Finset (Fin 4096)).fold min pinf f := by
  rw [fold_min_tiles]; rfl

/-- The first output's buffer after the last tile of a batch element: minA[b, ·]. -/
theorem out2_at (c : Dev nD) (t : Fin cfg0.N) (h1 : t.val % 4 = 3) (p : Fin 4096) :
    (outsAt0 m c t.val t.isLt).1 (ix3 0 0 p) = minA (P m c) (T m c) (bOf t) p := by
  have h0 : ¬t.val % 4 = 0 := by omega
  have hs := scr_at m c t.val t.isLt p
  rw [h1, acc_three] at hs
  refine Eq.trans ?_ hs
  rw [outsAt0_C m c t h0 h1]; dsimp only
  refine (congrFun (out2_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) (ix3 0 0 p)).trans ?_
  refine (pay3_apply _ p).trans ?_
  exact (congrFun (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) (ix2 p 0)).symm

/-! ## The two result arrays -/

/-- The first result array [8,1,4096] as one function: minA[b, n] at (b, 0, n). -/
def G2 (c : Dev nD) : S8x1x4096.Idx → EReal := fun i => minA (P m c) (T m c) ⟨(i 0).val, (i 0).isLt⟩ ⟨(i 2).val, (i 2).isLt⟩
/-- The second: minB[b, k] at (b, 0, k). -/
def G3 (c : Dev nD) : S8x1x4096.Idx → EReal := fun i => minB (P m c) (T m c) ⟨(i 0).val, (i 0).isLt⟩ ⟨(i 2).val, (i 2).isLt⟩

theorem blk_idx {n : Nat} (j : (⟨3, ![1, 1, n]⟩ : Shape).Idx) : j = ix3 0 0 (j 2) := by
  funext a
  match a with
  | ⟨0, _⟩ => apply Fin.ext; show (j 0).val = 0; have h : (j 0).val < 1 := (j 0).isLt; omega
  | ⟨1, _⟩ => apply Fin.ext; show (j 1).val = 0; have h : (j 1).val < 1 := (j 1).isLt; omega
  | ⟨2, _⟩ => rfl

/-- What the last tile's point writes back is its block of `G2`. -/
theorem flushed2_eq (c : Dev nD) (t : Fin cfg0.N) (hf : (cfg0.win 2).flush t = true) :
    (dats m 0 c).flushed 2 t = ((cfg0.win 2).blk t).view.read (Elt Ideal) (G2 m c) := by
  have h1 : t.val % 4 = 3 := (flush0_2 t).mp hf
  obtain ⟨e0, e1, e2⟩ := idx2 t
  show (cfg0.win 2).cut (grid0.coords t) ((dats m 0 c).after 2 t) = _
  rw [after0_2]
  funext j
  rw [blk_idx j]
  show (outsAt0 m c t.val t.isLt).1 (ix3 0 0 (j 2)) = G2 m c (((cfg0.win 2).blk t).view.emb (ix3 0 0 (j 2)))
  rw [out2_at m c t h1 (j 2)]
  unfold G2
  refine congrArg₂ (minA (P m c) (T m c)) ?_ ?_
  · apply Fin.ext; show t.val / 4 = win0_2.index t (0 : Fin 3) * 1 + 1 * 0; omega
  · apply Fin.ext; show (j 2).val = win0_2.index t (2 : Fin 3) * 4096 + 1 * (j 2).val; omega

/-- What every point writes back of the second output is its block of `G3`. -/
theorem flushed3_eq (c : Dev nD) (t : Fin cfg0.N) (hf : (cfg0.win 3).flush t = true) :
    (dats m 0 c).flushed 3 t = ((cfg0.win 3).blk t).view.read (Elt Ideal) (G3 m c) := by
  obtain ⟨e0, e1, e2⟩ := idx3 t
  show (cfg0.win 3).cut (grid0.coords t) ((dats m 0 c).after 3 t) = _
  rw [after0_3]
  funext j
  rw [blk_idx j]
  show (outsAt0 m c t.val t.isLt).2.1 (ix3 0 0 (j 2)) = G3 m c (((cfg0.win 3).blk t).view.emb (ix3 0 0 (j 2)))
  rw [out3_at m c t (j 2)]
  unfold G3
  refine congrArg₂ (minB (P m c) (T m c)) ?_ ?_
  · apply Fin.ext; show t.val / 4 = win0_3.index t (0 : Fin 3) * 1 + 1 * 0; omega
  · apply Fin.ext; show t.val % 4 * 1024 + (j 2).val = win0_3.index t (2 : Fin 3) * 1024 + 1 * (j 2).val; omega

/-- The first result array after the run. -/
theorem final2 (c : Dev nD) : (dats m 0 c).arrAt 2 cfg0.N = G2 m c :=
  (dats m 0 c).arrAt_eq_of_cover 2 (G2 m c) (flushed2_eq m c) cover2
/-- The second result array after the run. -/
theorem final3 (c : Dev nD) : (dats m 0 c).arrAt 3 cfg0.N = G3 m c :=
  (dats m 0 c).arrAt_eq_of_cover 3 (G3 m c) (flushed3_eq m c) cover3

/-! ## The program's result -/

/-- The first result array, reshaped, is minA of the two clouds. -/
theorem reshaped2 (c : Dev nD) (hc : S8x1x4096.ShapeCasts S8x4096) :
    shapeCast S8x4096 ((dats m 0 c).arrAt 2 cfg0.N) hc = arrA (P m c) (T m c) := by
  rw [final2]
  exact reshape_eq (G2 m c) hc (arrA (P m c) (T m c)) (fun _ _ => rfl)
/-- The second, minB. -/
theorem reshaped3 (c : Dev nD) (hc : S8x1x4096.ShapeCasts S8x4096) :
    shapeCast S8x4096 ((dats m 0 c).arrAt 3 cfg0.N) hc = arrB (P m c) (T m c) := by
  rw [final3]
  exact reshape_eq (G3 m c) hc (arrB (P m c) (T m c)) (fun _ _ => rfl)

/-- The result of the kernel program on core c. -/
def result (c : Dev nD) : (⟨S_, .f32⟩ : BufTy).Contents (Elt Ideal) :=
  TailK (F := Ideal) (arrA (P m c) (T m c)) (arrB (P m c) (T m c))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What the lines after the region compute from the region's exit contents. -/
theorem tail_eq (c : Dev nD) :
    Pipeline.afterTail₀ cfgs (dats m) 0 (V0 m) tailOps c main_v79 = result m c := by
  unfold Pipeline.afterTail₀
  refine (kernel_tail (F := Ideal) _).trans ?_
  unfold result
  rw [show Pipeline.withArrays spec0 c (V0 m c) (fun w => (dats m 0 c).arrAt w cfg0.N) (Proc.devRef .tc main_v0_0) = (dats m 0 c).arrAt 2 cfg0.N from
        Pipeline.withArrays_arr spec0 launch0.win.arr_inj c _ _ 2,
      show Pipeline.withArrays spec0 c (V0 m c) (fun w => (dats m 0 c).arrAt w cfg0.N) (Proc.devRef .tc main_v0_1) = (dats m 0 c).arrAt 3 cfg0.N from
        Pipeline.withArrays_arr spec0 launch0.win.arr_inj c _ _ 3,
      reshaped2, reshaped3,
      Pipeline.withArrays_of_ne _ c (V0 m c) _ main_arg2 (by decide : ∀ w, Pipeline.arrRef spec0 w ≠ main_arg2),
      Pipeline.withArrays_of_ne _ c (V0 m c) _ main_arg3 (by decide : ∀ w, Pipeline.arrRef spec0 w ≠ main_arg3),
      Pipeline.withArrays_of_ne _ c (V0 m c) _ main_arg4 (by decide : ∀ w, Pipeline.arrRef spec0 w ≠ main_arg4),
      Pipeline.withArrays_of_ne _ c (V0 m c) _ main_arg5 (by decide : ∀ w, Pipeline.arrRef spec0 w ≠ main_arg5),
      Pipeline.withArrays_of_ne _ c (V0 m c) _ main_arg6 (by decide : ∀ w, Pipeline.arrRef spec0 w ≠ main_arg6),
      Pipeline.withArrays_of_ne _ c (V0 m c) _ main_arg7 (by decide : ∀ w, Pipeline.arrRef spec0 w ≠ main_arg7),
      Pipeline.withArrays_of_ne _ c (V0 m c) _ main_arg8 (by decide : ∀ w, Pipeline.arrRef spec0 w ≠ main_arg8),
      Pipeline.withArrays_of_ne _ c (V0 m c) _ main_arg9 (by decide : ∀ w, Pipeline.arrRef spec0 w ≠ main_arg9),
      Pipeline.withArrays_of_ne _ c (V0 m c) _ main_arg10 (by decide : ∀ w, Pipeline.arrRef spec0 w ≠ main_arg10)]
  rfl

/-- The run, read. -/
theorem run : θ_run defs (onTc (τ := τ) (main (F := Ideal))) ⟨m, fun _ => 0, ρ⟩ (fun r => ∀ c : Dev nD,
      r.2.mem ((c.tc : Thread nD τ).loc main_v79) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v79 (Pipeline.mem_restRefs_of main_v79 (by decide) (by decide))).trans (tail_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_arg m (dats m) c main_arg2 (by decide) (by decide)),
    ((h c).2 main_arg3 (Pipeline.mem_restRefs_of main_arg3 (by decide) (by decide))).trans (W_arg m (dats m) c main_arg3 (by decide) (by decide)),
    ((h c).2 main_arg4 (Pipeline.mem_restRefs_of main_arg4 (by decide) (by decide))).trans (W_arg m (dats m) c main_arg4 (by decide) (by decide)),
    ((h c).2 main_arg5 (Pipeline.mem_restRefs_of main_arg5 (by decide) (by decide))).trans (W_arg m (dats m) c main_arg5 (by decide) (by decide)),
    ((h c).2 main_arg6 (Pipeline.mem_restRefs_of main_arg6 (by decide) (by decide))).trans (W_arg m (dats m) c main_arg6 (by decide) (by decide)),
    ((h c).2 main_arg7 (Pipeline.mem_restRefs_of main_arg7 (by decide) (by decide))).trans (W_arg m (dats m) c main_arg7 (by decide) (by decide)),
    ((h c).2 main_arg8 (Pipeline.mem_restRefs_of main_arg8 (by decide) (by decide))).trans (W_arg m (dats m) c main_arg8 (by decide) (by decide)),
    ((h c).2 main_arg9 (Pipeline.mem_restRefs_of main_arg9 (by decide) (by decide))).trans (W_arg m (dats m) c main_arg9 (by decide) (by decide)),
    ((h c).2 main_arg10 (Pipeline.mem_restRefs_of main_arg10 (by decide) (by decide))).trans (W_arg m (dats m) c main_arg10 (by decide) (by decide))⟩)
    (run_main m ρ)

end Cert.KernelIdeal.Val

end
-- ==== Proof.RefHead.lean ====
/-
  The head of the reference, read as mathematics.

  For every batch element b, predicted point n and target point k the reference first forms the number
  d[b,n,k] = (|p|² + |t|²) − 2·(p·t), where p = P[b,n,·] and t = T[b,k,·] and each of |p|², |t|² and p·t is
  zero plus a three-term sum taken from the left. Without the leading zero that is the expanded squared distance
  `Cert.Chamfer.D`, with the same grouping: nothing is reassociated. Its two minimum reductions then fold `min`
  from +∞ along one axis, over the targets k for the first result and over the predicted points n for the second;
  `min` is commutative and associative, so the order in which an axis is folded does not matter and the two
  reductions are `Cert.Chamfer.arrA` and `Cert.Chamfer.arrB`.
-/
import proofs.«406927_j11931419148433_3_alg».proof.Proof.Gen.ReferenceIdeal.Read
import proofs.«406927_j11931419148433_3_alg».proof.Proof.Spec
import Idealize.ShloMosaic.PureOps.Reduce
import Idealize.ShloMosaic.PureOps.Ideal.Laws
import Idealize.ShloMosaic.Lib.ValueIdx

noncomputable section

namespace Cert.ReferenceIdeal.Head

open Cert.ReferenceIdeal Cert.ReferenceIdeal.Gen Cert.ReferenceIdeal.Read Cert.Chamfer
open Idealize.ShloMosaic Idealize.ShloMosaic.ValueIdx

/-! ## Where the distance array reads the two clouds

At the point (b, n, k) of the [8, 4096, 4096] array, |p|² is read through two broadcasts (it does not depend on k) and
|t|² through two others (it does not depend on n); the dot product reads P at (b, n, c) and T at (b, k, c). -/

/-- |p|² at (b, n, k) sums over the coordinates c of predicted point n. -/
theorem idx_sqP (b : Fin 8) (n k : Fin 4096) (c : Fin 3) :
    idx_main_v1 (idx_main_v2 (idx_main_v6 (ix3 b n k))) c = ix3 b n c :=
  funext fun a => Fin.ext (by match a with | ⟨0, _⟩ => rfl | ⟨1, _⟩ => rfl | ⟨2, _⟩ => rfl)

/-- |t|² at (b, n, k) sums over the coordinates c of target point k. -/
theorem idx_sqT (b : Fin 8) (n k : Fin 4096) (c : Fin 3) :
    idx_main_v4 (idx_main_v5 (idx_main_v7 (ix3 b n k))) c = ix3 b k c :=
  funext fun a => Fin.ext (by match a with | ⟨0, _⟩ => rfl | ⟨1, _⟩ => rfl | ⟨2, _⟩ => rfl)

/-- The dot product at (b, n, k) reads the predicted cloud at (b, n, c) … -/
theorem idx_dotP (b : Fin 8) (n k : Fin 4096) (c : Fin 3) : lidx_main_v9 (ix3 b n k) c = ix3 b n c :=
  funext fun a => Fin.ext (by match a with | ⟨0, _⟩ => rfl | ⟨1, _⟩ => rfl | ⟨2, _⟩ => rfl)

/-- … and the target cloud at (b, k, c). -/
theorem idx_dotT (b : Fin 8) (n k : Fin 4096) (c : Fin 3) : ridx_main_v9 (ix3 b n k) c = ix3 b k c :=
  funext fun a => Fin.ext (by match a with | ⟨0, _⟩ => rfl | ⟨1, _⟩ => rfl | ⟨2, _⟩ => rfl)

/-! ## The distance array -/

/-- The reference's [8, 4096, 4096] array at (b, n, k) is the expanded squared distance d(n, k) of batch element b:
    each of its three sums is 0 + ((· + ·) + ·), and 0 + s = s. -/
theorem val12_apply (x0 x1 : Cert.Chamfer.Cloud) (b : Fin 8) (n k : Fin 4096) :
    Cert.ReferenceIdeal.Read.val_main_v12 (F := Ideal) x0 x1 (ix3 b n k) = Cert.Chamfer.D x0 x1 b n k := by
  rw [val_main_v12_apply, val_main_v8_apply, val_main_v6_apply, val_main_v2_apply, val_main_v1_apply,
    val_main_v7_apply, val_main_v5_apply, val_main_v4_apply, val_main_v11_apply, val_main_v10_apply,
    val_main_v9_apply, val_main_cst_apply, val_main_cst_0_apply, val_main_cst_1_apply]
  simp only [Fin.sum_univ_three, val_main_v0_apply, val_main_v3_apply, idx_sqP, idx_sqT, idx_dotP, idx_dotT,
    Ideal.ofBits_def, Ideal.addf_def, Ideal.subf_def, Ideal.mulf_def, Ideal.ofBits_zero_f32, zero_add]
  rfl

/-! ## The two minimum reductions -/

/-- Dropping the target axis of [8, 4096, 4096] leaves [8, 4096] … -/
theorem red_k : S8x4096x4096.Reduces [2] S8x4096 := by decide
/-- … and so does dropping the axis of the predicted points. -/
theorem red_n : S8x4096x4096.Reduces [1] S8x4096 := by decide

/-- (b, n) with target k put back on the last axis is (b, n, k). -/
theorem lift_k (b : Fin 8) (n k : Fin 4096) : red_k.lift (ix2 b n) k = ix3 b n k :=
  funext fun a => Fin.ext (by match a with | ⟨0, _⟩ => rfl | ⟨1, _⟩ => rfl | ⟨2, _⟩ => rfl)

/-- (b, k) with predicted point n put back on the middle axis is (b, n, k). -/
theorem lift_n (b : Fin 8) (k n : Fin 4096) : red_n.lift (ix2 b k) n = ix3 b n k :=
  funext fun a => Fin.ext (by match a with | ⟨0, _⟩ => rfl | ⟨1, _⟩ => rfl | ⟨2, _⟩ => rfl)

/-- The minimum over the targets: per predicted point, the fold of `min` from +∞ over k of d(n, k). -/
theorem val13_eq (x0 x1 : Cert.Chamfer.Cloud) :
    Cert.ReferenceIdeal.Read.val_main_v13 (F := Ideal) x0 x1 = Cert.Chamfer.arrA x0 x1 := by
  funext i
  obtain ⟨b, n, rfl⟩ : ∃ (b : Fin 8) (n : Fin 4096), i = ix2 b n := ⟨i 0, i 1, eq_ix2 i⟩
  unfold val_main_v13
  rw [Host.reduce_eq_fold_single FloatOps.minimumf _ _ reducesTo_S8x4096x4096_S8x4096_d2 red_k h_S_]
  have hf : (val_main_v12 (F := Ideal) x0 x1 ∘ red_k.lift (ix2 b n)) = fun k : Fin 4096 => D x0 x1 b n k :=
    funext fun k => (congrArg (val_main_v12 (F := Ideal) x0 x1) (lift_k b n k)).trans (val12_apply x0 x1 b n k)
  exact congrArg (fun f => Finset.fold min pinf f (Finset.univ : Finset (Fin 4096))) hf

/-- The minimum over the predicted points: per target point, the fold of `min` from +∞ over n of d(n, k). -/
theorem val14_eq (x0 x1 : Cert.Chamfer.Cloud) :
    Cert.ReferenceIdeal.Read.val_main_v14 (F := Ideal) x0 x1 = Cert.Chamfer.arrB x0 x1 := by
  funext i
  obtain ⟨b, k, rfl⟩ : ∃ (b : Fin 8) (k : Fin 4096), i = ix2 b k := ⟨i 0, i 1, eq_ix2 i⟩
  unfold val_main_v14
  rw [Host.reduce_eq_fold_single FloatOps.minimumf _ _ reducesTo_S8x4096x4096_S8x4096_d1 red_n h_S_]
  have hf : (val_main_v12 (F := Ideal) x0 x1 ∘ red_n.lift (ix2 b k)) = fun n : Fin 4096 => D x0 x1 b n k :=
    funext fun n => (congrArg (val_main_v12 (F := Ideal) x0 x1) (lift_n b k n)).trans (val12_apply x0 x1 b n k)
  exact congrArg (fun f => Finset.fold min pinf f (Finset.univ : Finset (Fin 4096))) hf

end Cert.ReferenceIdeal.Head

end
-- ==== Proof.TailR.lean ====
/-
  The reference program ends in the common tail.

  The reference computes its two arrays of minima as its stages 13 and 14, and every later stage is one operation of
  the chain `TailK` spells, in the same order and with the same literals.  So the reference's result, as a function of
  its arguments, is `TailK` applied to those two arrays and to the arguments 2 … 10.  The two programs name their shapes,
  their contraction and gather records and their shape facts separately, with equal definitions; the equation holds
  by unfolding the stages after 14, never the two arrays themselves.
-/
import proofs.«406927_j11931419148433_3_alg».proof.Proof.TailK
import proofs.«406927_j11931419148433_3_alg».proof.Proof.Gen.ReferenceIdeal.Read

noncomputable section

namespace Cert.ReferenceIdeal.TailR

open Cert.ReferenceIdeal Cert.ReferenceIdeal.Gen Cert.ReferenceIdeal.Read Idealize.ShloMosaic

variable {F : FTy → Type} [FloatOps F]

set_option maxRecDepth 65536 in
set_option maxHeartbeats 4000000 in
/-- The reference's result is the common tail of its two arrays of minima (stages 13 and 14) and of its arguments
    2 … 10: the stages 15 … 91, unfolded from the last to the first, are the lines of `TailK`. -/
theorem ref_tail (x0 x1 : (⟨S8x4096x3, .f32⟩ : BufTy).Contents (Elt F)) (x2 : (⟨S8x512, .f32⟩ : BufTy).Contents (Elt F))
    (x3 : (⟨S8, .f32⟩ : BufTy).Contents (Elt F)) (x4 : (⟨S512x256, .f32⟩ : BufTy).Contents (Elt F))
    (x5 : (⟨S256, .f32⟩ : BufTy).Contents (Elt F)) (x6 : (⟨S256x128, .f32⟩ : BufTy).Contents (Elt F))
    (x7 : (⟨S128, .f32⟩ : BufTy).Contents (Elt F)) (x8 : (⟨S128x6, .f32⟩ : BufTy).Contents (Elt F))
    (x9 : (⟨S6, .f32⟩ : BufTy).Contents (Elt F)) (x10 : (⟨S8, .i32⟩ : BufTy).Contents (Elt F)) :
    Cert.ReferenceIdeal.Read.val_main_v91 (F := F) x0 x1 x2 x3 x4 x5 x6 x7 x8 x9 x10
      = Cert.KernelIdeal.Tail.TailK (Cert.ReferenceIdeal.Read.val_main_v13 (F := F) x0 x1)
          (Cert.ReferenceIdeal.Read.val_main_v14 (F := F) x0 x1) x2 x3 x4 x5 x6 x7 x8 x9 x10 := by
  -- the result and the label branch
  unfold val_main_v91 val_main_v90 val_main_v89 val_main_cst_35 val_main_v88 val_main_cst_34 val_main_v87 val_main_v86
    val_main_cst_33 val_main_v85 val_main_cst_32 val_main_v84
  -- the pick at the label
  unfold val_main_call3_v14 val_main_call3_cst val_main_call3_v13 val_main_call3_v12 val_main_call3_c_3
    val_main_call3_v11 val_main_call3_v10 val_main_call3_v9 val_main_call3_v8 val_main_call3_v7 val_main_call3_v6
    val_main_call3_c_2 val_main_call3_c_1 val_main_call3_v5 val_main_call3_v4 val_main_call3_v3 val_main_call3_v2
    val_main_call3_c_0 val_main_call3_v1 val_main_call3_v0 val_main_call3_c val_main_v83
  -- the log-softmax
  unfold val_main_v82 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst
  -- the three layers
  unfold val_main_v81 val_main_v80 val_main_v79 val_main_v78 val_main_v77 val_main_call1_v0 val_main_call1_cst
    val_main_v76 val_main_v75 val_main_v74 val_main_v73 val_main_v72 val_main_call0_v0 val_main_call0_cst
    val_main_v71 val_main_v70 val_main_v69 val_main_v68
  -- the weighted per-row loss
  unfold val_main_v67 val_main_cst_31 val_main_v66 val_main_cst_30 val_main_v65 val_main_v64 val_main_v63 val_main_v62
    val_main_cst_29 val_main_v61 val_main_v60 val_main_cst_28 val_main_v59 val_main_v58 val_main_v57 val_main_cst_27
    val_main_v56 val_main_v55 val_main_v54 val_main_v53 val_main_cst_26 val_main_v52 val_main_v51 val_main_cst_25
    val_main_v50 val_main_cst_24 val_main_v49 val_main_v48 val_main_cst_23 val_main_v47 val_main_cst_22 val_main_v46
    val_main_v45 val_main_v44 val_main_cst_21 val_main_v43 val_main_cst_20 val_main_v42 val_main_v41 val_main_cst_19
    val_main_v40 val_main_cst_18
  -- the loss over all entries
  unfold val_main_v39 val_main_v38 val_main_cst_17 val_main_v37 val_main_cst_16 val_main_v36 val_main_v35
    val_main_cst_15 val_main_v34 val_main_v33 val_main_v32 val_main_cst_14 val_main_v31 val_main_cst_13 val_main_v30
    val_main_cst_12 val_main_v29 val_main_cst_11 val_main_v28 val_main_cst_10 val_main_v27 val_main_v26 val_main_cst_9
    val_main_v25 val_main_cst_8 val_main_v24 val_main_cst_7 val_main_v23 val_main_cst_6 val_main_v22 val_main_v21
    val_main_v20 val_main_cst_5 val_main_v19 val_main_v18 val_main_v17 val_main_v16 val_main_cst_4 val_main_v15
  rfl

end Cert.ReferenceIdeal.TailR

end
-- ==== Proof.lean ====
/-
  Chamfer minima by a tiled kernel against their jnp definition, followed on both sides by the same scalar loss.

  The pallas_call computes, for each batch element, the squared distances d(n,k) = (|p_n|² + |t_k|²) − 2·(p_n·t_k)
  between 4096 predicted and 4096 target points one tile of 1024 targets at a time, keeps the running row minimum in a
  scratch, and returns minA[n] = min_k d(n,k) and minB[k] = min_n d(n,k). The reference forms the whole [8,4096,4096]
  array of the same expression — the same three-term sums in the same grouping, the same literal 2 — and reduces it
  along each axis. Over the extended reals `min` is associative, commutative and idempotent, so the minimum over all
  targets is the minimum of the four tiles' minima, taken in the kernel's order from +∞: the two min arrays agree
  index by index. Both programs then apply one and the same chain of host operations to those arrays and to the other
  arguments; that chain is carried as one function and never opened. No law used needs the inputs to be finite.

  The three frames: the two printed kernel programs run through the library's launch theorem for one region followed
  by host lines, the body run once per control case (first, middle, last tile of a batch element); the reference's
  frame is its run with the result dropped. The ideal pass rewrote nothing, so `preserves` is `True`.
-/
import proofs.«406927_j11931419148433_3_alg».proof.Defs
import proofs.«406927_j11931419148433_3_alg».proof.Proof.Gen.Kernel
import proofs.«406927_j11931419148433_3_alg».proof.Proof.Gen.KernelIdeal
import proofs.«406927_j11931419148433_3_alg».proof.Proof.Gen.ReferenceIdeal
import proofs.«406927_j11931419148433_3_alg».proof.Proof.Gen.Pre_finite_inputs
import proofs.«406927_j11931419148433_3_alg».proof.Proof.Gen.ReferenceIdeal.Run
import proofs.«406927_j11931419148433_3_alg».proof.Proof.Gen.ReferenceIdeal.Read
import proofs.«406927_j11931419148433_3_alg».proof.Proof.K.Frame
import proofs.«406927_j11931419148433_3_alg».proof.Proof.KI.Value
import proofs.«406927_j11931419148433_3_alg».proof.Proof.RefHead
import proofs.«406927_j11931419148433_3_alg».proof.Proof.TailR
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the shared tail of minA and minB of the two clouds and of the other arguments. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v91_eq, Cert.ReferenceIdeal.TailR.ref_tail, Cert.ReferenceIdeal.Head.val13_eq,
    Cert.ReferenceIdeal.Head.val14_eq, a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
